-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S32768x1x1024 : Shape := ⟨3, ![32768, 1, 1024]⟩
abbrev S1x2048 : Shape := ⟨2, ![1, 2048]⟩
abbrev S1 : Shape := ⟨1, ![1]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S32768x1x1024 : S_.BroadcastsInDim S32768x1x1024 (![] : Fin 0 → Fin S32768x1x1024.rank)
  reducesTo_S32768x1x1024_S_d0_1_2 : S32768x1x1024.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1x1024 .f32) (main_arg1 : FVec F S32768x1x1024 .f32) (main_arg2 : FVec F S1x2048 .f32) (main_arg3 : FVec F S1 .f32) : IVec S_ 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S32768x1x1024 .f32 := Host.absf main_arg1
  let main_cst_0 : FVec F S_ .f32 := constant S_ .f32 0x7F800000#32
  let main_v5 : FVec F S32768x1x1024 .f32 := broadcastInDim S32768x1x1024 ![] bcast_S_S32768x1x1024 main_cst_0
  let main_v6 : IVec S32768x1x1024 1 := cmpf .olt main_v4 main_v5
  let main_c_1 : IVec S_ 1 := constantI S_ 1 1#1
  let main_v7 : IVec S_ 1 := (fun x v => Host.reduce IntOp.andi x v reducesTo_S32768x1x1024_S_d0_1_2 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1x1024 : Shape := ⟨2, ![1, 1024]⟩
abbrev S32768x1x1024 : Shape := ⟨3, ![32768, 1, 1024]⟩
abbrev S1x2048 : Shape := ⟨2, ![1, 2048]⟩
abbrev S1 : Shape := ⟨1, ![1]⟩
abbrev S32768x1024 : Shape := ⟨2, ![32768, 1024]⟩
abbrev S1024x1 : Shape := ⟨2, ![1024, 1]⟩
abbrev S1x1 : Shape := ⟨2, ![1, 1]⟩
abbrev S1x32768 : Shape := ⟨2, ![1, 32768]⟩
abbrev S2048x1024 : Shape := ⟨2, ![2048, 1024]⟩

abbrev nBuf : Space → Nat
  | .hbm => 22
  | .vmem => 12
  | .smem => 0
  | _ => 0

abbrev bufTy : (tb : Table) → Fin (tcTables nBuf tb) → BufTy
  | .hbm, ⟨0, _⟩ => ⟨S1x1024, .f32⟩
  | .hbm, ⟨1, _⟩ => ⟨S32768x1x1024, .f32⟩
  | .hbm, ⟨2, _⟩ => ⟨S1x2048, .f32⟩
  | .hbm, ⟨3, _⟩ => ⟨S1, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S1x32768, .f32⟩
  | .hbm, ⟨12, _⟩ => ⟨S1x1, .f32⟩
  | .hbm, ⟨13, _⟩ => ⟨S1x1, .f32⟩
  | .hbm, ⟨14, _⟩ => ⟨S1x1024, .f32⟩
  | .hbm, ⟨15, _⟩ => ⟨S1x32768, .f32⟩
  | .hbm, ⟨16, _⟩ => ⟨S1x32768, .f32⟩
  | .hbm, ⟨17, _⟩ => ⟨S1x32768, .f32⟩
  | .hbm, ⟨18, _⟩ => ⟨S1x32768, .f32⟩
  | .hbm, ⟨19, _⟩ => ⟨S1x32768, .f32⟩
  | .hbm, ⟨20, _⟩ => ⟨S1x1024, .f32⟩
  | .hbm, ⟨21, _⟩ => ⟨S1x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1, .f32⟩
  | .local _ .vmem, ⟨4, _⟩ => ⟨S1x2048, .f32⟩
  | .local _ .vmem, ⟨5, _⟩ => ⟨S1x2048, .f32⟩
  | .local _ .vmem, ⟨6, _⟩ => ⟨S1x1, .f32⟩
  | .local _ .vmem, ⟨7, _⟩ => ⟨S1x1, .f32⟩
  | .local _ .vmem, ⟨8, _⟩ => ⟨S1x1024, .f32⟩
  | .local _ .vmem, ⟨9, _⟩ => ⟨S1x1, .f32⟩
  | .local _ .vmem, ⟨10, _⟩ => ⟨S1x1, .f32⟩
  | .local _ .vmem, ⟨11, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S32768x1x1024_S32768x1024 : S32768x1x1024.ShapeCasts S32768x1024
  slices_S1x2048_S1x1024_0_0 : S1x2048.Slices ![0, 0] S1x1024
  slices_S1x2048_S1x1024_0_1024 : S1x2048.Slices ![0, 1024] S1x1024
  transposes_S1x1024_S1024x1_1_0 : S1x1024.Transposes [1, 0] S1024x1
  bcast_S1_S1x1_1 : S1.BroadcastsInDim S1x1 (![1] : Fin 1 → Fin S1x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  broadcasts_S1x1_S1x2048 : S1x1.Broadcasts S1x2048
  reduces_S1x2048_S1 : S1x2048.Reduces [1] S1
  shapeCasts_S1_S1x1 : S1.ShapeCasts S1x1
  broadcasts_S1x1_S1x1024 : S1x1.Broadcasts S1x1024
  inb_S1x2048_S1x2048_0_0 : ∀ a, (![0, 0] : Fin 2 → Nat) a + S1x2048.size a ≤ S1x2048.size a
  h_S1x2048 : 0 < S1x2048.numel
  bcast_S1x1_S1x32768_0_1 : S1x1.BroadcastsInDim S1x32768 (![0, 1] : Fin 2 → Fin S1x32768.rank)
  bcast_S1x1_S1x1024_0_1 : S1x1.BroadcastsInDim S1x1024 (![0, 1] : Fin 2 → Fin S1x1024.rank)
  dot_S1x1024_S1024x1_S1x1_1_0_0_1_n_n_wf : DotDims.WF S1x1024 S1024x1 S1x1 [1] [0] [0] [1] [] []
  dot_S1x1024_S2048x1024_S1x2048_1_1_0_0_n_n_wf : DotDims.WF S1x1024 S2048x1024 S1x2048 [1] [1] [0] [0] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x32768.size a
  hwx0_3 : ∀ i : grid0.Coords, EltTy.bits .f32 = 32 ∨ (Rect.block (s := S1x32768) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)

variable [Facts₀]

def dot_S1x1024_S1024x1_S1x1_1_0_0_1_n_n : DotDims S1x1024 S1024x1 S1x1 where
  lhsContracting := [1]
  rhsContracting := [0]
  lhsNonContracting := [0]
  rhsNonContracting := [1]
  lhsBatch := []
  rhsBatch := []
  wf := dot_S1x1024_S1024x1_S1x1_1_0_0_1_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_3) S1x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1x1024 : Shape := ⟨2, ![1, 1024]⟩
abbrev S32768x1x1024 : Shape := ⟨3, ![32768, 1, 1024]⟩
abbrev S1x2048 : Shape := ⟨2, ![1, 2048]⟩
abbrev S1 : Shape := ⟨1, ![1]⟩
abbrev S32768x1024 : Shape := ⟨2, ![32768, 1024]⟩
abbrev S1024x1 : Shape := ⟨2, ![1024, 1]⟩
abbrev S32768x1 : Shape := ⟨2, ![32768, 1]⟩
abbrev S1x1 : Shape := ⟨2, ![1, 1]⟩
abbrev S1x32768 : Shape := ⟨2, ![1, 32768]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S32768x1x1024, .f32⟩
  | .hbm, ⟨2, _⟩ => ⟨S1x2048, .f32⟩
  | .hbm, ⟨3, _⟩ => ⟨S1, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x1, .f32⟩
  | .hbm, ⟨8, _⟩ => ⟨S32768x1, .f32⟩
  | .hbm, ⟨9, _⟩ => ⟨S1024x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S32768x1, .f32⟩
  | .hbm, ⟨14, _⟩ => ⟨S32768x1, .f32⟩
  | .hbm, ⟨15, _⟩ => ⟨S1x32768, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S1x1, .f32⟩
  | .hbm, ⟨22, _⟩ => ⟨S1x32768, .f32⟩
  | .hbm, ⟨23, _⟩ => ⟨S1x32768, .f32⟩
  | .hbm, ⟨24, _⟩ => ⟨S1x32768, .f32⟩
  | .hbm, ⟨25, _⟩ => ⟨S_, .f32⟩
  | .hbm, ⟨26, _⟩ => ⟨S1, .f32⟩
  | .hbm, ⟨27, _⟩ => ⟨S1x1, .f32⟩
  | .hbm, ⟨28, _⟩ => ⟨S1x32768, .f32⟩
  | .hbm, ⟨29, _⟩ => ⟨S1x32768, .f32⟩
  | .hbm, ⟨30, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S32768x1x1024_S32768x1024 : S32768x1x1024.ShapeCasts S32768x1024
  slices_S1x2048_S1x1024_0_0 : S1x2048.Slices ![0, 0] S1x1024
  slices_S1x2048_S1x1024_0_1024 : S1x2048.Slices ![0, 1024] S1x1024
  transposes_S1x1024_S1024x1_1_0 : S1x1024.Transposes [1, 0] S1024x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S1x32768 : S32768x1.ShapeCasts S1x32768
  reducesTo_S1x32768_S1_d1 : S1x32768.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32768_0_1 : S1x1.BroadcastsInDim S1x32768 (![0, 1] : Fin 2 → Fin S1x32768.rank)
  dot_S32768x1024_S1024x1_S32768x1_1_0_0_1_n_n_wf : DotDims.WF S32768x1024 S1024x1 S32768x1 [1] [0] [0] [1] [] []
  dot_S1x1024_S1024x1_S1x1_1_0_0_1_n_n_wf : DotDims.WF S1x1024 S1024x1 S1x1 [1] [0] [0] [1] [] []
  dot_S1x32768_S32768x1024_S1x1024_1_0_0_1_n_n_wf : DotDims.WF S1x32768 S32768x1024 S1x1024 [1] [0] [0] [1] [] []

variable [Facts₀]

def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf
def dot_S1x1024_S1024x1_S1x1_1_0_0_1_n_n : DotDims S1x1024 S1024x1 S1x1 where
  lhsContracting := [1]
  rhsContracting := [0]
  lhsNonContracting := [0]
  rhsNonContracting := [1]
  lhsBatch := []
  rhsBatch := []
  wf := dot_S1x1024_S1024x1_S1x1_1_0_0_1_n_n_wf
def dot_S1x32768_S32768x1024_S1x1024_1_0_0_1_n_n : DotDims S1x32768 S32768x1024 S1x1024 where
  lhsContracting := [1]
  rhsContracting := [0]
  lhsNonContracting := [0]
  rhsNonContracting := [1]
  lhsBatch := []
  rhsBatch := []
  wf := dot_S1x32768_S32768x1024_S1x1024_1_0_0_1_n_n_wf

class Facts : Prop extends Facts₀ where

variable [Facts]
-- ==== Proof.Pieces.lean ====
/-
  What one run of the attention kernel's body leaves in each buffer, as a value.

  The body stores the tile's scores into the scores block, and updates three carried buffers — the running maximum, the
  running denominator and the running weighted sum — each by one store of a value computed from the tile's blocks and the
  buffer's previous contents. At the first grid point the previous contents are the reset values the body has just stored
  (-∞, 0, 0); at the other points they are what the point before left. At the last point the body also copies the three
  carried buffers into the three small outputs. Each lemma reads one buffer's final contents back as the body's pure
  payload applied to the loaded blocks.
-/
import proofs.«166729_j42322607735440_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offset of a whole-buffer access, as a constant function. -/
theorem hz : (![0, 0] : Fin 2 → Nat) = fun _ => 0 := funext fun a => by fin_cases a <;> rfl

/-! ## The first point: the carried values start from their reset values -/

/-- The scores block the body stores. -/
theorem out0_A_3_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : cond0_0 i) (hc1 : ¬cond0_1 i)
    (x0 : Vec F S2048x1024 .f32) (x1 : Vec F S1x1024 .f32) (x2 : Vec F S1x1 .f32) :
    out0_A_3 c i arg1 harg1 arg2 harg2 arg3 harg3 arg4 harg4 arg5 harg5 arg6 harg6 arg7 harg7 arg8 harg8 arg9 harg9 arg10 harg10 hc0 hc1 x0 x1 x2 = k0_pay7 x0 x1 x2 := by
  unfold out0_A_3
  rw [View.read_writes_eq_canon _ _ _ (cover0_A_3 c i arg1 harg1 arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running maximum it leaves. -/
theorem sout0_A_0_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : cond0_0 i) (hc1 : ¬cond0_1 i)
    (x0 : Vec F S2048x1024 .f32) (x1 : Vec F S1x1024 .f32) (x2 : Vec F S1x1 .f32) :
    sout0_A_0 c i arg1 harg1 arg2 harg2 arg3 harg3 arg4 harg4 arg5 harg5 arg6 harg6 arg7 harg7 arg8 harg8 arg9 harg9 arg10 harg10 hc0 hc1 x0 x1 x2 = k0_pay2 (k0_pay8 x0 x1 x2 (k0_pay3 (F := F))) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running denominator it leaves. -/
theorem sout0_A_1_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : cond0_0 i) (hc1 : ¬cond0_1 i)
    (x0 : Vec F S2048x1024 .f32) (x1 : Vec F S1x1024 .f32) (x2 : Vec F S1x1 .f32) :
    sout0_A_1 c i arg1 harg1 arg2 harg2 arg3 harg3 arg4 harg4 arg5 harg5 arg6 harg6 arg7 harg7 arg8 harg8 arg9 harg9 arg10 harg10 hc0 hc1 x0 x1 x2 = k0_pay11 x0 x1 x2 (k0_pay3 (F := F)) (k0_pay4 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running weighted sum it leaves. -/
theorem sout0_A_2_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : cond0_0 i) (hc1 : ¬cond0_1 i)
    (x0 : Vec F S2048x1024 .f32) (x1 : Vec F S1x1024 .f32) (x2 : Vec F S1x1 .f32) :
    sout0_A_2 c i arg1 harg1 arg2 harg2 arg3 harg3 arg4 harg4 arg5 harg5 arg6 harg6 arg7 harg7 arg8 harg8 arg9 harg9 arg10 harg10 hc0 hc1 x0 x1 x2 = k0_pay1 (k0_pay12 x0 x1 x2 (k0_pay3 (F := F)) (k0_pay5 (F := F))) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-! ## A middle point: the carried values start from what the point before left -/

/-- The scores block the body stores. -/
theorem out0_B_3_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : ¬cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    out0_B_3 c i arg1 harg1 arg2 harg2 arg3 harg3 arg4 harg4 arg5 harg5 arg6 harg6 arg7 harg7 arg8 harg8 arg9 harg9 arg10 harg10 hc0 hc1 x0 x1 x2 xs0 xs1 xs2 = k0_pay7 x0 x1 x2 := by
  unfold out0_B_3
  rw [View.read_writes_eq_canon _ _ _ (cover0_B_3 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running maximum it leaves. -/
theorem sout0_B_0_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : ¬cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    sout0_B_0 c i arg1 harg1 arg2 harg2 arg3 harg3 arg4 harg4 arg5 harg5 arg6 harg6 arg7 harg7 arg8 harg8 arg9 harg9 arg10 harg10 hc0 hc1 x0 x1 x2 xs0 xs1 xs2 = k0_pay2 (k0_pay8 x0 x1 x2 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running denominator it leaves. -/
theorem sout0_B_1_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : ¬cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    sout0_B_1 c i arg1 harg1 arg2 harg2 arg3 harg3 arg4 harg4 arg5 harg5 arg6 harg6 arg7 harg7 arg8 harg8 arg9 harg9 arg10 harg10 hc0 hc1 x0 x1 x2 xs0 xs1 xs2 = k0_pay11 x0 x1 x2 xs0 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running weighted sum it leaves. -/
theorem sout0_B_2_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : ¬cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    sout0_B_2 c i arg1 harg1 arg2 harg2 arg3 harg3 arg4 harg4 arg5 harg5 arg6 harg6 arg7 harg7 arg8 harg8 arg9 harg9 arg10 harg10 hc0 hc1 x0 x1 x2 xs0 xs1 xs2 = k0_pay1 (k0_pay12 x0 x1 x2 xs0 xs2) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-! ## The last point: as a middle point, and the carried values are also copied to the three small outputs -/

/-- The scores block the body stores. -/
theorem out0_C_3_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    out0_C_3 c i arg1 harg1 arg2 harg2 arg3 harg3 arg4 harg4 arg5 harg5 arg6 harg6 arg7 harg7 arg8 harg8 arg9 harg9 arg10 harg10 hc0 hc1 x0 x1 x2 xs0 xs1 xs2 = k0_pay7 x0 x1 x2 := by
  unfold out0_C_3
  rw [View.read_writes_eq_canon _ _ _ (cover0_C_3 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running maximum it leaves. -/
theorem sout0_C_0_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    sout0_C_0 c i arg1 harg1 arg2 harg2 arg3 harg3 arg4 harg4 arg5 harg5 arg6 harg6 arg7 harg7 arg8 harg8 arg9 harg9 arg10 harg10 hc0 hc1 x0 x1 x2 xs0 xs1 xs2 = k0_pay2 (k0_pay8 x0 x1 x2 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running denominator it leaves. -/
theorem sout0_C_1_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    sout0_C_1 c i arg1 harg1 arg2 harg2 arg3 harg3 arg4 harg4 arg5 harg5 arg6 harg6 arg7 harg7 arg8 harg8 arg9 harg9 arg10 harg10 hc0 hc1 x0 x1 x2 xs0 xs1 xs2 = k0_pay11 x0 x1 x2 xs0 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The running weighted sum it leaves. -/
theorem sout0_C_2_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    sout0_C_2 c i arg1 harg1 arg2 harg2 arg3 harg3 arg4 harg4 arg5 harg5 arg6 harg6 arg7 harg7 arg8 harg8 arg9 harg9 arg10 harg10 hc0 hc1 x0 x1 x2 xs0 xs1 xs2 = k0_pay1 (k0_pay12 x0 x1 x2 xs0 xs2) := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The maximum output: the running maximum just stored. -/
theorem out0_C_4_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    out0_C_4 c i arg1 harg1 arg2 harg2 arg3 harg3 arg4 harg4 arg5 harg5 arg6 harg6 arg7 harg7 arg8 harg8 arg9 harg9 arg10 harg10 hc0 hc1 x0 x1 x2 xs0 xs1 xs2 = k0_pay2 (k0_pay8 x0 x1 x2 xs0) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The denominator output: the running denominator just stored. -/
theorem out0_C_5_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    out0_C_5 c i arg1 harg1 arg2 harg2 arg3 harg3 arg4 harg4 arg5 harg5 arg6 harg6 arg7 harg7 arg8 harg8 arg9 harg9 arg10 harg10 hc0 hc1 x0 x1 x2 xs0 xs1 xs2 = k0_pay11 x0 x1 x2 xs0 xs1 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

/-- The weighted-sum output: the running weighted sum just stored. -/
theorem out0_C_6_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1024 .f32) (harg10 : arg10.IsWhole) (hc0 : ¬cond0_0 i) (hc1 : cond0_1 i)
    (x0 : Vec F S2048x1024 .f32) (x1 : Vec F S1x1024 .f32) (x2 : Vec F S1x1 .f32) (xs0 : Vec F S1x1 .f32) (xs1 : Vec F S1x1 .f32) (xs2 : Vec F S1x1024 .f32) :
    out0_C_6 c i arg1 harg1 arg2 harg2 arg3 harg3 arg4 harg4 arg5 harg5 arg6 harg6 arg7 harg7 arg8 harg8 arg9 harg9 arg10 harg10 hc0 hc1 x0 x1 x2 xs0 xs1 xs2 = k0_pay1 (k0_pay12 x0 x1 x2 xs0 xs2) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg8.read_unread, harg9.read_unread, harg10.read_unread, View.ld_unit_zero (S := S1x1) hz, View.ld_unit_zero (S := S1x1024) hz, View.ld_unit_zero (S := S1x2048) hz, View.ld_unit_zero (S := S2048x1024) hz, View.readCov_unit_zero (S := S1x1) _ hz, View.readCov_unit_zero (S := S1x1024) _ hz, View.readCov_unit_zero (S := S1x2048) _ hz]

end Cert.KernelIdeal.Pieces

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibBands.lean ====
/-
  Extrema of a function on `Fin N` taken band by band.

  For `f : Fin N → α` and a band width `b`: the infimum of `f` over the indices below `(k + 1) * b` is the infimum
  over the indices below `k * b` combined with the infimum over the `b` indices `k * b, …, k * b + b - 1` of band
  `k`; below `0` it is `⊤`, below `N` it is the infimum over all indices. The same for suprema from `⊥`.
  And a fold of `min` from `⊤` (of `max` from `⊥`) over a finite set is that set's infimum (supremum), so a
  reduction printed as such a fold can be compared by its universal property instead of its order of evaluation.
-/
import Mathlib.Data.Finset.Fold
import Mathlib.Data.Finset.Lattice.Fold
import Mathlib.Data.Fintype.Basic
import Mathlib.Order.Fin.Basic

namespace Cert.LibBands

variable {α : Type} {ι : Type}

/-! ## A fold of `min` / `max` is an infimum / supremum -/

/-- The fold of `min` from the top element over a finite set is the set's infimum. -/
theorem fold_min_eq_inf [LinearOrder α] [OrderTop α] (s : Finset ι) (f : ι → α) :
    s.fold min ⊤ f = s.inf f := by
  classical
  induction s using Finset.induction_on with
  | empty => rw [Finset.fold_empty, Finset.inf_empty]
  | insert a s ha ih => rw [Finset.fold_insert ha, Finset.inf_insert, ih]

/-- The fold of `max` from the bottom element over a finite set is the set's supremum. -/
theorem fold_max_eq_sup [LinearOrder α] [OrderBot α] (s : Finset ι) (f : ι → α) :
    s.fold max ⊥ f = s.sup f := by
  classical
  induction s using Finset.induction_on with
  | empty => rw [Finset.fold_empty, Finset.sup_empty]
  | insert a s ha ih => rw [Finset.fold_insert ha, Finset.sup_insert, ih]

/-! ## The indices below a bound, and one band of them -/

variable {N : ℕ}

/-- The indices of `Fin N` whose value is below `m`. -/
def below (N m : ℕ) : Finset (Fin N) := Finset.univ.filter fun j => j.val < m

theorem mem_below {m : ℕ} (j : Fin N) : j ∈ below N m ↔ j.val < m := by
  unfold below; rw [Finset.mem_filter]; exact and_iff_right (Finset.mem_univ _)

/-- No index is below zero. -/
theorem below_zero : below N 0 = ∅ := by
  ext j; rw [mem_below]; exact iff_of_false (Nat.not_lt_zero _) (Finset.notMem_empty _)

/-- Every index is below the extent. -/
theorem below_self : below N N = Finset.univ := by
  ext j; rw [mem_below]; exact iff_of_true j.isLt (Finset.mem_univ _)

/-- Index `k * b + q` of band `k`, when band `k` lies inside `Fin N`. -/
def bandIdx (b k : ℕ) (h : (k + 1) * b ≤ N) (q : Fin b) : Fin N :=
  ⟨k * b + q.val, by have := q.isLt; have e : (k + 1) * b = k * b + b := Nat.succ_mul k b; omega⟩

theorem bandIdx_val (b k : ℕ) (h : (k + 1) * b ≤ N) (q : Fin b) : (bandIdx b k h q).val = k * b + q.val := rfl

/-! ## Infima band by band -/

/-- The infimum over the indices below `(k + 1) * b` is the one below `k * b` met with the one over band `k`. -/
theorem inf_below_succ [SemilatticeInf α] [OrderTop α] (f : Fin N → α) (b k : ℕ) (h : (k + 1) * b ≤ N) :
    (below N ((k + 1) * b)).inf f = (below N (k * b)).inf f ⊓ Finset.univ.inf fun q : Fin b => f (bandIdx b k h q) := by
  have e : (k + 1) * b = k * b + b := Nat.succ_mul k b
  apply le_antisymm
  · refine le_inf (Finset.le_inf fun j hj => Finset.inf_le ?_) (Finset.le_inf fun q _ => Finset.inf_le ?_)
    · rw [mem_below] at hj ⊢; omega
    · rw [mem_below, bandIdx_val]; have := q.isLt; omega
  · refine Finset.le_inf fun j hj => ?_
    rw [mem_below] at hj
    by_cases hlt : j.val < k * b
    · exact inf_le_left.trans (Finset.inf_le ((mem_below j).2 hlt))
    · have hq : j.val - k * b < b := by omega
      refine inf_le_right.trans ((Finset.inf_le (Finset.mem_univ (⟨j.val - k * b, hq⟩ : Fin b))).trans (le_of_eq ?_))
      exact congrArg f (Fin.ext (by rw [bandIdx_val]; show k * b + (j.val - k * b) = j.val; omega))

/-- The supremum over the indices below `(k + 1) * b` is the one below `k * b` joined with the one over band `k`. -/
theorem sup_below_succ [SemilatticeSup α] [OrderBot α] (f : Fin N → α) (b k : ℕ) (h : (k + 1) * b ≤ N) :
    (below N ((k + 1) * b)).sup f = (below N (k * b)).sup f ⊔ Finset.univ.sup fun q : Fin b => f (bandIdx b k h q) := by
  have e : (k + 1) * b = k * b + b := Nat.succ_mul k b
  apply le_antisymm
  · refine Finset.sup_le fun j hj => ?_
    rw [mem_below] at hj
    by_cases hlt : j.val < k * b
    · exact (Finset.le_sup ((mem_below j).2 hlt)).trans le_sup_left
    · have hq : j.val - k * b < b := by omega
      refine le_trans (le_of_eq ?_) ((Finset.le_sup (Finset.mem_univ (⟨j.val - k * b, hq⟩ : Fin b))).trans le_sup_right)
      exact congrArg f (Fin.ext (by rw [bandIdx_val]; show j.val = k * b + (j.val - k * b); omega))
  · refine sup_le (Finset.sup_le fun j hj => Finset.le_sup ?_) (Finset.sup_le fun q _ => Finset.le_sup ?_)
    · rw [mem_below] at hj ⊢; omega
    · rw [mem_below, bandIdx_val]; have := q.isLt; omega

end Cert.LibBands
-- ==== Proof.TileIdx.lean ====
/-
  The attention kernel's body read index by index at the extended reals.

  Each value the body computes on a tile — the scores, the new running maximum, the rescaling factor, the weights, the
  new denominator and the new weighted sum — is written out at an index as sums, maxima, exponentials and products of
  the entries of the blocks it loads. Changes of float format are the identity here, a product of matrices into a zero
  accumulator is the plain sum of products, a lane reduction is a sum (or a maximum taken from -∞) over the lane index,
  and a [1,1] value broadcast along a row is that value.
-/
import proofs.«166729_j42322607735440_1_alg».proof.Proof.Gen.KernelIdeal.Skeleton
import proofs.«166729_j42322607735440_1_alg».proof.Proof.LibKeepdims
import proofs.«166729_j42322607735440_1_alg».proof.Proof.LibMatmul2
import proofs.«166729_j42322607735440_1_alg».proof.Proof.LibBands
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileIdx

open Cert.KernelIdeal Cert.KernelIdeal.Gen Idealize.ShloMosaic Idealize.ShloMosaic.ValueIdx Finset

/-! ## The stores' casts are the identity (any values) -/

section
variable {F : FTy → Type} [FloatOps F]

theorem pay1_eq (v : FVec F S1x1024 .f32) : k0_pay1 v = v := by
  unfold k0_pay1
  exact shapeCast_self _ _

theorem pay2_eq (v : FVec F S1x1 .f32) : k0_pay2 v = v := by
  unfold k0_pay2
  exact shapeCast_self _ _

end

/-! ## The reset values -/

/-- The word of f32's -∞ is the bottom of the extended reals. -/
theorem ofBits_neg_inf_f32 : Ideal.ofBits .f32 0xFF800000#32 = (⊥ : EReal) := by
  simp [Ideal.ofBits, Ideal.ieee]

theorem reset_max_apply : k0_pay3 (F := Ideal) (ix2 (0 : Fin 1) (0 : Fin 1)) = (⊥ : EReal) := by
  unfold k0_pay3
  rw [shapeCast_self]
  exact ofBits_neg_inf_f32

theorem reset_den_apply : k0_pay4 (F := Ideal) (ix2 (0 : Fin 1) (0 : Fin 1)) = (0 : EReal) := by
  unfold k0_pay4
  rw [shapeCast_self]
  exact Ideal.ofBits_zero_f32

theorem reset_acc_apply (h : Fin 1024) : k0_pay5 (F := Ideal) (ix2 (0 : Fin 1) h) = (0 : EReal) := by
  unfold k0_pay5
  rw [shapeCast_self]
  exact Ideal.ofBits_zero_f32

/-! ## The lane reductions of a row -/

/-- The lane sum of a [1,2048] row, at its one index, is the sum of the row's entries. -/
theorem rowsum_apply (src : FVec Ideal S1x2048 .f32) (hφ : FKind.Formats .f32)
    (hacc : (0x00000000#32 : BitVec 32) = 0x00000000#32) :
    multiReduction (F := Ideal) .add [1] S1 src 0x00000000#32 reduces_S1x2048_S1 hφ hacc (ix1 (0 : Fin 1))
      = ∑ j : Fin 2048, src (ix2 (0 : Fin 1) j) := by
  refine (Ideal.multiReduction_add_single src _ reduces_S1x2048_S1 hφ hacc (ix1 (0 : Fin 1))).trans ?_
  refine Finset.sum_congr rfl fun k _ => ?_
  exact congrArg src (funext fun a => Fin.ext (by match a with | ⟨0, _⟩ => rfl | ⟨1, _⟩ => rfl))

/-- The lane maximum of a [1,2048] row taken from -∞, at its one index, is the supremum of the row's entries. -/
theorem rowmax_apply (src : FVec Ideal S1x2048 .f32) (hφ : FKind.Formats .f32)
    (hacc : (0xFF800000#32 : BitVec 32) = 0xFF800000#32) :
    multiReduction (F := Ideal) .maximumf [1] S1 src 0xFF800000#32 reduces_S1x2048_S1 hφ hacc (ix1 (0 : Fin 1))
      = univ.sup fun j : Fin 2048 => src (ix2 (0 : Fin 1) j) := by
  refine (Ideal.multiReduction_maximumf_single src _ reduces_S1x2048_S1 hφ hacc (ix1 (0 : Fin 1))).trans ?_
  refine (congrArg (fun b => Finset.fold max b (src ∘ reduces_S1x2048_S1.lift (ix1 (0 : Fin 1))) Finset.univ)
    ofBits_neg_inf_f32).trans ?_
  refine (Cert.LibBands.fold_max_eq_sup _ _).trans ?_
  exact congrArg (Finset.sup (Finset.univ : Finset (Fin 2048))) (funext fun k =>
    congrArg src (funext fun a => Fin.ext (by match a with | ⟨0, _⟩ => rfl | ⟨1, _⟩ => rfl)))

/-! ## The loaded tile after its casts, and the two products of matrices -/

/-- The tile after its cast to its own shape and its change of format is the loaded tile. -/
theorem pay6_apply (x0 : Vec Ideal S2048x1024 .f32) (i : S2048x1024.Idx) : k0_pay6 (F := Ideal) x0 i = x0 i := by
  unfold k0_pay6
  rw [truncf_apply, shapeCast_self]

/-- A product of an [M, K] matrix with the transpose of an [N, K] matrix (both second axes contracted, no batch axis)
    into a zero accumulator, read at (p, h), is Σₖ a (p, k) · b (h, k). The record's four coordinate facts are
    hypotheses, decided on the literal record. -/
theorem matmul_nt_zero_apply {M K N : Nat} {φ₁ φ₂ : FTy}
    (D : DotDims ⟨2, ![M, K]⟩ ⟨2, ![N, K]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (a : FVec Ideal ⟨2, ![M, K]⟩ φ₁) (b : FVec Ideal ⟨2, ![N, K]⟩ φ₂) (p : Fin M) (h : Fin N) :
    matmul D none a b (constant ⟨2, ![M, N]⟩ .f32 0x00000000#32) (ix2 p h) = ∑ k : Fin K, a (ix2 p k) * b (ix2 h k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 h k := funext fun x => Fin.ext (by
    match x with
    | ⟨0, _⟩ => exact hr0 _ _
    | ⟨1, _⟩ => exact (hr1 _ _).trans hk)
  rw [el, er]

/-! ### The scores' record: the weight row's axis 1 against the tile's axis 1 -/

theorem lhs_qk_0 (i : S1x2048.Idx) (q : dot_S1x1024_S2048x1024_S1x2048_1_1_0_0_n_n.contr.Idx) :
    (dot_S1x1024_S2048x1024_S1x2048_1_1_0_0_n_n.lhsIdx i q 0).val = (i 0).val := by
  unfold DotDims.lhsIdx
  rw [dif_neg (show ¬(0 : Fin S1x1024.rank) ∈ dot_S1x1024_S2048x1024_S1x2048_1_1_0_0_n_n.lhsBatch by decide), dif_pos (show (0 : Fin S1x1024.rank) ∈ dot_S1x1024_S2048x1024_S1x2048_1_1_0_0_n_n.lhsNonContracting by decide)]
  rfl
theorem lhs_qk_1 (i : S1x2048.Idx) (q : dot_S1x1024_S2048x1024_S1x2048_1_1_0_0_n_n.contr.Idx) :
    (dot_S1x1024_S2048x1024_S1x2048_1_1_0_0_n_n.lhsIdx i q 1).val = (q ⟨0, by decide⟩).val :=
  dot_S1x1024_S2048x1024_S1x2048_1_1_0_0_n_n.lhsIdx_val_of_single rfl i q
theorem rhs_qk_0 (i : S1x2048.Idx) (q : dot_S1x1024_S2048x1024_S1x2048_1_1_0_0_n_n.contr.Idx) :
    (dot_S1x1024_S2048x1024_S1x2048_1_1_0_0_n_n.rhsIdx i q 0).val = (i 1).val := by
  unfold DotDims.rhsIdx
  rw [dif_neg (show ¬(0 : Fin S2048x1024.rank) ∈ dot_S1x1024_S2048x1024_S1x2048_1_1_0_0_n_n.rhsBatch by decide), dif_pos (show (0 : Fin S2048x1024.rank) ∈ dot_S1x1024_S2048x1024_S1x2048_1_1_0_0_n_n.rhsNonContracting by decide)]
  rfl
theorem rhs_qk_1 (i : S1x2048.Idx) (q : dot_S1x1024_S2048x1024_S1x2048_1_1_0_0_n_n.contr.Idx) :
    (dot_S1x1024_S2048x1024_S1x2048_1_1_0_0_n_n.rhsIdx i q 1).val = (q ⟨0, by decide⟩).val :=
  dot_S1x1024_S2048x1024_S1x2048_1_1_0_0_n_n.rhsIdx_val_of_single rfl i q

/-! ### The weighted sum's record: the weights' axis 1 against the tile's axis 0 -/

theorem lhs_pv_0 (i : S1x1024.Idx) (q : dot_S1x2048_S2048x1024_S1x1024_1_0_0_1_n_n.contr.Idx) :
    (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
theorem lhs_pv_1 (i : S1x1024.Idx) (q : dot_S1x2048_S2048x1024_S1x1024_1_0_0_1_n_n.contr.Idx) :
    (dot_S1x2048_S2048x1024_S1x1024_1_0_0_1_n_n.lhsIdx i q 1).val = (q ⟨0, by decide⟩).val :=
  dot_S1x2048_S2048x1024_S1x1024_1_0_0_1_n_n.lhsIdx_val_of_single rfl i q
theorem rhs_pv_0 (i : S1x1024.Idx) (q : dot_S1x2048_S2048x1024_S1x1024_1_0_0_1_n_n.contr.Idx) :
    (dot_S1x2048_S2048x1024_S1x1024_1_0_0_1_n_n.rhsIdx i q 0).val = (q ⟨0, by decide⟩).val :=
  dot_S1x2048_S2048x1024_S1x1024_1_0_0_1_n_n.rhsIdx_val_of_single rfl i q
theorem rhs_pv_1 (i : S1x1024.Idx) (q : dot_S1x2048_S2048x1024_S1x1024_1_0_0_1_n_n.contr.Idx) :
    (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-! ## The tile's values at an index -/

section
variable (x0 : Vec Ideal S2048x1024 .f32) (x1 : Vec Ideal S1x1024 .f32) (x2 : Vec Ideal S1x1 .f32)

/-- Score `j` of the tile: the weight row against row `j` of the tile, plus the bias. -/
theorem pay7_apply (j : Fin 2048) :
    k0_pay7 (F := Ideal) x0 x1 x2 (ix2 (0 : Fin 1) j)
      = (∑ h : Fin 1024, x1 (ix2 (0 : Fin 1) h) * x0 (ix2 j h)) + x2 (ix2 (0 : Fin 1) (0 : Fin 1)) := by
  unfold k0_pay7
  rw [addf_apply, KeepdimsLayout.broadcastTo_a1_ab_apply, shapeCast_self x2,
    matmul_nt_zero_apply dot_S1x1024_S2048x1024_S1x2048_1_1_0_0_n_n rfl rfl lhs_qk_0 lhs_qk_1 rhs_qk_0 rhs_qk_1]
  refine congrArg (· + _) (Finset.sum_congr rfl fun k _ => ?_)
  rw [pay6_apply, truncf_apply, shapeCast_self]

/-- The new running maximum: the old one against the largest score of the tile (a supremum from -∞). -/
theorem pay8_apply (xs0 : Vec Ideal S1x1 .f32) :
    k0_pay8 (F := Ideal) x0 x1 x2 xs0 (ix2 (0 : Fin 1) (0 : Fin 1))
      = max (xs0 (ix2 (0 : Fin 1) (0 : Fin 1))) (univ.sup fun j : Fin 2048 => k0_pay7 (F := Ideal) x0 x1 x2 (ix2 (0 : Fin 1) j)) := by
  unfold k0_pay8
  rw [maximumf_apply, KeepdimsLayout.shapeCast_a_a1_apply, rowmax_apply]

/-- The rescaling factor: the exponential of the old maximum minus the new one. -/
theorem pay9_apply (xs0 : Vec Ideal S1x1 .f32) :
    k0_pay9 (F := Ideal) x0 x1 x2 xs0 (ix2 (0 : Fin 1) (0 : Fin 1))
      = Ideal.exp (xs0 (ix2 (0 : Fin 1) (0 : Fin 1)) - k0_pay8 (F := Ideal) x0 x1 x2 xs0 (ix2 (0 : Fin 1) (0 : Fin 1))) := by
  unfold k0_pay9
  rfl

/-- Weight `j` of the tile: the exponential of the score minus the new maximum. -/
theorem pay10_apply (xs0 : Vec Ideal S1x1 .f32) (j : Fin 2048) :
    k0_pay10 (F := Ideal) x0 x1 x2 xs0 (ix2 (0 : Fin 1) j)
      = Ideal.exp (k0_pay7 (F := Ideal) x0 x1 x2 (ix2 (0 : Fin 1) j) - k0_pay8 (F := Ideal) x0 x1 x2 xs0 (ix2 (0 : Fin 1) (0 : Fin 1))) := by
  unfold k0_pay10
  show Ideal.exp (k0_pay7 (F := Ideal) x0 x1 x2 (ix2 (0 : Fin 1) j)
      - broadcastTo S1x2048 (k0_pay8 (F := Ideal) x0 x1 x2 xs0) broadcasts_S1x1_S1x2048 (ix2 (0 : Fin 1) j)) = _
  rw [KeepdimsLayout.broadcastTo_a1_ab_apply]

/-- The new denominator: the old one rescaled, plus the sum of the tile's weights. -/
theorem pay11_apply (xs0 xs1 : Vec Ideal S1x1 .f32) :
    k0_pay11 (F := Ideal) x0 x1 x2 xs0 xs1 (ix2 (0 : Fin 1) (0 : Fin 1))
      = k0_pay9 (F := Ideal) x0 x1 x2 xs0 (ix2 (0 : Fin 1) (0 : Fin 1)) * xs1 (ix2 (0 : Fin 1) (0 : Fin 1))
        + ∑ j : Fin 2048, k0_pay10 (F := Ideal) x0 x1 x2 xs0 (ix2 (0 : Fin 1) j) := by
  unfold k0_pay11
  rw [shapeCast_self, addf_apply, mulf_apply, KeepdimsLayout.shapeCast_a_a1_apply, rowsum_apply]

/-- The new weighted sum at column `h`: the old one rescaled, plus the tile's rows weighted. -/
theorem pay12_apply (xs0 : Vec Ideal S1x1 .f32) (xs2 : Vec Ideal S1x1024 .f32) (h : Fin 1024) :
    k0_pay12 (F := Ideal) x0 x1 x2 xs0 xs2 (ix2 (0 : Fin 1) h)
      = k0_pay9 (F := Ideal) x0 x1 x2 xs0 (ix2 (0 : Fin 1) (0 : Fin 1)) * xs2 (ix2 (0 : Fin 1) h)
        + ∑ j : Fin 2048, k0_pay10 (F := Ideal) x0 x1 x2 xs0 (ix2 (0 : Fin 1) j) * x0 (ix2 j h) := by
  unfold k0_pay12
  rw [addf_apply, mulf_apply, KeepdimsLayout.broadcastTo_a1_ab_apply,
    Cert.LibMatmul2.matmul_zero_apply dot_S1x2048_S2048x1024_S1x1024_1_0_0_1_n_n rfl rfl lhs_pv_0 lhs_pv_1 rhs_pv_0 rhs_pv_1]
  refine congrArg (_ + ·) (Finset.sum_congr rfl fun k _ => ?_)
  rw [pay6_apply, truncf_apply]

end

end Cert.KernelIdeal.TileIdx

end
-- ==== Proof.TileStep.lean ====
/-
  One tile of the attention kernel's body, read at the extended reals.

  On a tile of 2048 rows the body computes the scores  s j = Σₕ w h · x j h + bias,  the new running maximum
  m' = max m (maxⱼ s j),  the rescaling factor  exp (m - m'),  the weights  p j = exp (s j - m'),  the new denominator
  exp (m - m') · l + Σⱼ p j  and the new weighted sum  exp (m - m') · a h + Σⱼ p j · x j h.  When the tile's rows, the weight
  row and the bias are finite numbers every one of these is a finite number, given here in closed form — both for the
  first tile, where the running maximum starts at -∞ (so the rescaling factor is exp (-∞) = 0) and the sums start at 0,
  and for a later tile, where they start from finite numbers.
-/
import proofs.«166729_j42322607735440_1_alg».proof.Proof.Gen.KernelIdeal.Skeleton
import proofs.«166729_j42322607735440_1_alg».proof.Proof.TileIdx
import Idealize.ShloMosaic.PureOps.Ideal.Laws
import Idealize.ShloMosaic.Lib.ValueIdx
import Idealize.ShloMosaic.Lib.ValueLayout
import Idealize.ShloMosaic.Lib.Pipeline.Value
import Mathlib.Analysis.SpecialFunctions.Exp

noncomputable section

namespace Cert.KernelIdeal.TileValue

open Cert.KernelIdeal Cert.KernelIdeal.Gen Cert.KernelIdeal.TileIdx Idealize.ShloMosaic Idealize.ShloMosaic.ValueIdx Finset

/-! ## Coercions of finite sums and maxima -/

/-- The coercion of a finite sum of reals is the sum of the coercions. -/
theorem tile_coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The supremum from -∞ of finitely many finite numbers (at least one) is their maximum. -/
theorem tile_sup_coe {ι : Type} (s : Finset ι) (hs : s.Nonempty) (f : ι → ℝ) :
    s.sup (fun j => ((f j : ℝ) : EReal)) = ((s.sup' hs f : ℝ) : EReal) := by
  apply le_antisymm
  · apply Finset.sup_le
    intro j hj
    exact EReal.coe_le_coe_iff.mpr (Finset.le_sup' f hj)
  · obtain ⟨j, hj, hjeq⟩ := Finset.exists_mem_eq_sup' hs f
    rw [hjeq]
    exact Finset.le_sup (f := fun j => ((f j : ℝ) : EReal)) hj

/-- The coercion of the larger of two reals. -/
theorem tile_coe_max (a b : ℝ) : max (a : EReal) (b : EReal) = ((max a b : ℝ) : EReal) :=
  (EReal.coe_strictMono.monotone.map_max).symm

/-! ## One tile over finite numbers -/

/-- The tile's scores over the reals: row `j` of the tile against the weight row, plus the bias. -/
def tsc (Xt : Fin 2048 → Fin 1024 → ℝ) (W : Fin 1024 → ℝ) (bb : ℝ) (j : Fin 2048) : ℝ := (∑ h : Fin 1024, W h * Xt j h) + bb

/-- The tile's largest score. -/
def tmx (Xt : Fin 2048 → Fin 1024 → ℝ) (W : Fin 1024 → ℝ) (bb : ℝ) : ℝ := univ.sup' univ_nonempty (tsc Xt W bb)

section
variable (x0 : Vec Ideal S2048x1024 .f32) (x1 : Vec Ideal S1x1024 .f32) (x2 : Vec Ideal S1x1 .f32)
variable (Xt : Fin 2048 → Fin 1024 → ℝ) (W : Fin 1024 → ℝ) (bb : ℝ)
variable (hx0 : ∀ (j : Fin 2048) (h : Fin 1024), x0 (ix2 j h) = ((Xt j h : ℝ) : EReal))
variable (hx1 : ∀ h : Fin 1024, x1 (ix2 (0 : Fin 1) h) = ((W h : ℝ) : EReal))
variable (hx2 : x2 (ix2 (0 : Fin 1) (0 : Fin 1)) = ((bb : ℝ) : EReal))
include hx0 hx1 hx2

/-- The scores the body stores. -/
theorem scores_apply (j : Fin 2048) :
    k0_pay7 (F := Ideal) x0 x1 x2 (ix2 (0 : Fin 1) j) = ((tsc Xt W bb j : ℝ) : EReal) := by
  rw [pay7_apply, hx2]
  simp only [hx1, hx0]
  unfold tsc
  rw [EReal.coe_add, tile_coe_sum]
  simp only [EReal.coe_mul]

/-- The largest of the scores the body stores, taken from -∞, is the tile's largest score. -/
theorem scores_sup :
    (univ.sup fun j : Fin 2048 => k0_pay7 (F := Ideal) x0 x1 x2 (ix2 (0 : Fin 1) j)) = ((tmx Xt W bb : ℝ) : EReal) := by
  rw [tmx, ← tile_sup_coe]
  apply Finset.sup_congr rfl
  intro j _
  exact scores_apply x0 x1 x2 Xt W bb hx0 hx1 hx2 j

/-- First tile: the new maximum is the tile's. -/
theorem max_first :
    k0_pay8 (F := Ideal) x0 x1 x2 (k0_pay3 (F := Ideal)) (ix2 (0 : Fin 1) (0 : Fin 1)) = ((tmx Xt W bb : ℝ) : EReal) := by
  rw [pay8_apply, reset_max_apply, scores_sup x0 x1 x2 Xt W bb hx0 hx1 hx2]
  exact max_eq_right bot_le

/-- A later tile: the new maximum is the larger of the old one and the tile's. -/
theorem max_next (xs0 : Vec Ideal S1x1 .f32) (mp : ℝ) (hs0 : xs0 (ix2 (0 : Fin 1) (0 : Fin 1)) = ((mp : ℝ) : EReal)) :
    k0_pay8 (F := Ideal) x0 x1 x2 xs0 (ix2 (0 : Fin 1) (0 : Fin 1)) = ((max mp (tmx Xt W bb) : ℝ) : EReal) := by
  rw [pay8_apply, hs0, scores_sup x0 x1 x2 Xt W bb hx0 hx1 hx2, tile_coe_max]

/-- First tile: the denominator is the sum of the tile's weights. -/
theorem den_first :
    k0_pay11 (F := Ideal) x0 x1 x2 (k0_pay3 (F := Ideal)) (k0_pay4 (F := Ideal)) (ix2 (0 : Fin 1) (0 : Fin 1))
      = ((∑ j : Fin 2048, Real.exp (tsc Xt W bb j - tmx Xt W bb) : ℝ) : EReal) := by
  rw [pay11_apply, pay9_apply, max_first x0 x1 x2 Xt W bb hx0 hx1 hx2, reset_max_apply, reset_den_apply,
    EReal.bot_sub, Ideal.exp_bot, zero_mul, zero_add, tile_coe_sum]
  apply Finset.sum_congr rfl
  intro j _
  rw [pay10_apply, scores_apply x0 x1 x2 Xt W bb hx0 hx1 hx2, max_first x0 x1 x2 Xt W bb hx0 hx1 hx2,
    ← EReal.coe_sub, Ideal.exp_coe]

/-- A later tile: the old denominator rescaled, plus the sum of the tile's weights. -/
theorem den_next (xs0 xs1 : Vec Ideal S1x1 .f32) (mp lp : ℝ)
    (hs0 : xs0 (ix2 (0 : Fin 1) (0 : Fin 1)) = ((mp : ℝ) : EReal)) (hs1 : xs1 (ix2 (0 : Fin 1) (0 : Fin 1)) = ((lp : ℝ) : EReal)) :
    k0_pay11 (F := Ideal) x0 x1 x2 xs0 xs1 (ix2 (0 : Fin 1) (0 : Fin 1))
      = ((Real.exp (mp - max mp (tmx Xt W bb)) * lp + ∑ j : Fin 2048, Real.exp (tsc Xt W bb j - max mp (tmx Xt W bb)) : ℝ) : EReal) := by
  rw [pay11_apply, pay9_apply, max_next x0 x1 x2 Xt W bb hx0 hx1 hx2 xs0 mp hs0, hs0, hs1,
    ← EReal.coe_sub, Ideal.exp_coe, EReal.coe_add, EReal.coe_mul, tile_coe_sum]
  have hsum : (∑ j : Fin 2048, k0_pay10 (F := Ideal) x0 x1 x2 xs0 (ix2 (0 : Fin 1) j))
      = ∑ j : Fin 2048, ((Real.exp (tsc Xt W bb j - max mp (tmx Xt W bb)) : ℝ) : EReal) := by
    apply Finset.sum_congr rfl
    intro j _
    rw [pay10_apply, scores_apply x0 x1 x2 Xt W bb hx0 hx1 hx2, max_next x0 x1 x2 Xt W bb hx0 hx1 hx2 xs0 mp hs0,
      ← EReal.coe_sub, Ideal.exp_coe]
  rw [hsum]

/-- First tile: the weighted sum of the tile's rows. -/
theorem acc_first (h : Fin 1024) :
    k0_pay12 (F := Ideal) x0 x1 x2 (k0_pay3 (F := Ideal)) (k0_pay5 (F := Ideal)) (ix2 (0 : Fin 1) h)
      = ((∑ j : Fin 2048, Real.exp (tsc Xt W bb j - tmx Xt W bb) * Xt j h : ℝ) : EReal) := by
  rw [pay12_apply, pay9_apply, max_first x0 x1 x2 Xt W bb hx0 hx1 hx2, reset_max_apply, reset_acc_apply,
    EReal.bot_sub, Ideal.exp_bot, zero_mul, zero_add, tile_coe_sum]
  apply Finset.sum_congr rfl
  intro j _
  rw [pay10_apply, scores_apply x0 x1 x2 Xt W bb hx0 hx1 hx2, max_first x0 x1 x2 Xt W bb hx0 hx1 hx2, hx0,
    ← EReal.coe_sub, Ideal.exp_coe, EReal.coe_mul]

/-- A later tile: the old weighted sum rescaled, plus the weighted sum of the tile's rows. -/
theorem acc_next (xs0 : Vec Ideal S1x1 .f32) (xs2 : Vec Ideal S1x1024 .f32) (mp : ℝ) (ap : Fin 1024 → ℝ)
    (hs0 : xs0 (ix2 (0 : Fin 1) (0 : Fin 1)) = ((mp : ℝ) : EReal)) (hs2 : ∀ h : Fin 1024, xs2 (ix2 (0 : Fin 1) h) = ((ap h : ℝ) : EReal))
    (h : Fin 1024) :
    k0_pay12 (F := Ideal) x0 x1 x2 xs0 xs2 (ix2 (0 : Fin 1) h)
      = ((Real.exp (mp - max mp (tmx Xt W bb)) * ap h + ∑ j : Fin 2048, Real.exp (tsc Xt W bb j - max mp (tmx Xt W bb)) * Xt j h : ℝ) : EReal) := by
  rw [pay12_apply, pay9_apply, max_next x0 x1 x2 Xt W bb hx0 hx1 hx2 xs0 mp hs0, hs0, hs2,
    ← EReal.coe_sub, Ideal.exp_coe, EReal.coe_add, EReal.coe_mul, tile_coe_sum]
  have hsum : (∑ j : Fin 2048, k0_pay10 (F := Ideal) x0 x1 x2 xs0 (ix2 (0 : Fin 1) j) * x0 (ix2 j h))
      = ∑ j : Fin 2048, ((Real.exp (tsc Xt W bb j - max mp (tmx Xt W bb)) * Xt j h : ℝ) : EReal) := by
    apply Finset.sum_congr rfl
    intro j _
    rw [pay10_apply, scores_apply x0 x1 x2 Xt W bb hx0 hx1 hx2, max_next x0 x1 x2 Xt W bb hx0 hx1 hx2 xs0 mp hs0, hx0,
      ← EReal.coe_sub, Ideal.exp_coe, EReal.coe_mul]
  rw [hsum]

end

end Cert.KernelIdeal.TileValue

end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.SoftmaxReal.lean ====
/-
  Softmax accumulated tile by tile, over the reals.

  A row of 32768 scores `S` is cut into 16 tiles of 2048. Going through the tiles in order one keeps a running maximum
  `M`, a running denominator `L` and a running weighted sum `A` of the rows of a matrix `X`; when the maximum grows from
  `M k` to `M (k+1)` what was accumulated so far is rescaled by `exp (M k - M (k+1))`. Because
  `exp (M k - M (k+1)) * exp (s - M k) = exp (s - M (k+1))`, after the last tile the three are the maximum of all the
  scores, `Σₜ exp (S t - max)` and `Σₜ exp (S t - max) * X t h`: the one-pass softmax.
-/
import Mathlib.Analysis.SpecialFunctions.Exp
import Mathlib.Algebra.BigOperators.Field
import proofs.«166729_j42322607735440_1_alg».proof.Proof.LibBlockSum

noncomputable section

namespace Cert.Attn

open Finset

/-- Row `j` of tile `k` as a row of the whole matrix (tile `k` holds rows `2048 k … 2048 k + 2047`; taken modulo the
    number of rows so that it is defined for every `k`). -/
def rowN (k : ℕ) (j : Fin 2048) : Fin 32768 := ⟨(k * 2048 + j.val) % 32768, Nat.mod_lt _ (by norm_num)⟩

theorem rowN_val (k : ℕ) (hk : k < 16) (j : Fin 2048) : (rowN k j).val = k * 2048 + j.val := by
  have := j.isLt
  show (k * 2048 + j.val) % 32768 = _
  exact Nat.mod_eq_of_lt (by omega)

variable (S : Fin 32768 → ℝ) (X : Fin 32768 → Fin 1024 → ℝ)

/-- The largest score of tile `k`. -/
def tmax (k : ℕ) : ℝ := univ.sup' univ_nonempty fun j : Fin 2048 => S (rowN k j)

/-- The running maximum after tile `k`. -/
def M : ℕ → ℝ
  | 0 => tmax S 0
  | k + 1 => max (M k) (tmax S (k + 1))

/-- The running denominator after tile `k`. -/
def L : ℕ → ℝ
  | 0 => ∑ j : Fin 2048, Real.exp (S (rowN 0 j) - M S 0)
  | k + 1 => Real.exp (M S k - M S (k + 1)) * L k + ∑ j : Fin 2048, Real.exp (S (rowN (k + 1) j) - M S (k + 1))

/-- The running weighted sum of the rows of `X` after tile `k`, at column `h`. -/
def A : ℕ → Fin 1024 → ℝ
  | 0 => fun h => ∑ j : Fin 2048, Real.exp (S (rowN 0 j) - M S 0) * X (rowN 0 j) h
  | k + 1 => fun h => Real.exp (M S k - M S (k + 1)) * A k h
      + ∑ j : Fin 2048, Real.exp (S (rowN (k + 1) j) - M S (k + 1)) * X (rowN (k + 1) j) h

/-- The largest of all the scores. -/
def mx : ℝ := univ.sup' univ_nonempty S

/-- The softmax denominator. -/
def den : ℝ := ∑ t : Fin 32768, Real.exp (S t - mx S)

/-- Every row is row `t % 2048` of tile `t / 2048`, so a sum over all the rows is the sum over the 16 tiles of the sums
    over each tile's rows. -/
theorem sum_rows {β : Type*} [AddCommMonoid β] (f : Fin 32768 → β) :
    ∑ t : Fin 32768, f t = ∑ i ∈ range 16, ∑ j : Fin 2048, f (rowN i j) := by
  rw [Cert.BlockSum.sum_blocks 16 2048 (by norm_num) f,
    ← Fin.sum_univ_eq_sum_range (fun i => ∑ j : Fin 2048, f (rowN i j)) 16]
  refine Fintype.sum_congr _ _ fun i => Fintype.sum_congr _ _ fun j => ?_
  congr 1
  apply Fin.ext
  exact (rowN_val i.val i.isLt j).symm

/-- The running maximum after tile `k` is at least the largest score of every tile up to `k`. -/
theorem tmax_le_M (k i : ℕ) (hi : i ≤ k) : tmax S i ≤ M S k := by
  induction k with
  | zero =>
    obtain rfl : i = 0 := by omega
    exact le_refl _
  | succ k ih =>
    rcases Nat.lt_or_ge i (k + 1) with h | h
    · exact le_trans (ih (by omega)) (le_max_left _ _)
    · obtain rfl : i = k + 1 := by omega
      exact le_max_right _ _

/-- The running maximum after tile `k` is below every bound of the tiles up to `k`. -/
theorem M_le (k : ℕ) (c : ℝ) (hc : ∀ i, i ≤ k → tmax S i ≤ c) : M S k ≤ c := by
  induction k with
  | zero => exact hc 0 le_rfl
  | succ k ih => exact max_le (ih fun i hi => hc i (by omega)) (hc (k + 1) le_rfl)

/-- The running denominator after tile `k` is the sum over the rows of tiles `0 … k` of `exp (s - M k)`:
    rescaling by `exp (M k - M (k+1))` turns `exp (s - M k)` into `exp (s - M (k+1))`. -/
theorem L_closed (k : ℕ) :
    L S k = ∑ i ∈ range (k + 1), ∑ j : Fin 2048, Real.exp (S (rowN i j) - M S k) := by
  induction k with
  | zero => rw [sum_range_one]; rfl
  | succ k ih =>
    rw [L, ih, sum_range_succ _ (k + 1), mul_sum]
    congr 1
    refine sum_congr rfl fun i _ => ?_
    rw [mul_sum]
    refine sum_congr rfl fun j _ => ?_
    rw [← Real.exp_add]
    congr 1
    ring

/-- The same for the running weighted sum. -/
theorem A_closed (k : ℕ) (h : Fin 1024) :
    A S X k h = ∑ i ∈ range (k + 1), ∑ j : Fin 2048, Real.exp (S (rowN i j) - M S k) * X (rowN i j) h := by
  induction k with
  | zero => rw [sum_range_one]; rfl
  | succ k ih =>
    rw [A]
    beta_reduce
    rw [ih, sum_range_succ _ (k + 1), mul_sum]
    congr 1
    refine sum_congr rfl fun i _ => ?_
    rw [mul_sum]
    refine sum_congr rfl fun j _ => ?_
    rw [← mul_assoc, ← Real.exp_add]
    congr 2
    ring

/-- After the last tile the running maximum is the maximum of all the scores. -/
theorem M_last : M S 15 = mx S := by
  apply le_antisymm
  · refine M_le S 15 _ fun i _ => ?_
    exact sup'_le _ _ fun j _ => le_sup' S (mem_univ _)
  · refine sup'_le _ _ fun t _ => ?_
    have ht := t.isLt
    have h1 : t = rowN (t.val / 2048) ⟨t.val % 2048, Nat.mod_lt _ (by norm_num)⟩ := by
      apply Fin.ext
      rw [rowN_val _ (by omega)]
      show t.val = t.val / 2048 * 2048 + t.val % 2048
      omega
    calc S t = S (rowN (t.val / 2048) ⟨t.val % 2048, Nat.mod_lt _ (by norm_num)⟩) := congrArg S h1
      _ ≤ tmax S (t.val / 2048) :=
        le_sup' (fun j : Fin 2048 => S (rowN (t.val / 2048) j)) (mem_univ _)
      _ ≤ M S 15 := tmax_le_M S 15 _ (by omega)

/-- After the last tile the running denominator is the softmax denominator. -/
theorem L_last : L S 15 = den S := by
  rw [L_closed, M_last, den, sum_rows]

/-- After the last tile the running weighted sum is the unnormalised softmax-weighted sum of the rows. -/
theorem A_last (h : Fin 1024) : A S X 15 h = ∑ t : Fin 32768, Real.exp (S t - mx S) * X t h := by
  rw [A_closed, M_last, sum_rows]

/-- Every score is at most the maximum, and the maximum is one of the scores. -/
theorem le_mx (t : Fin 32768) : S t ≤ mx S := le_sup' S (mem_univ t)

theorem exists_eq_mx : ∃ t : Fin 32768, S t = mx S := by
  obtain ⟨t, _, ht⟩ := exists_mem_eq_sup' univ_nonempty S
  exact ⟨t, ht.symm⟩

/-- The denominator is positive. -/
theorem den_pos : 0 < den S :=
  sum_pos (fun t _ => Real.exp_pos _) univ_nonempty

/-- Dividing each weight by the denominator before summing, or the sum after: the same number. -/
theorem sum_div_den (h : Fin 1024) :
    ∑ t : Fin 32768, Real.exp (S t - mx S) / den S * X t h = (∑ t : Fin 32768, Real.exp (S t - mx S) * X t h) / den S := by
  rw [sum_div]
  refine sum_congr rfl fun t _ => ?_
  rw [div_mul_eq_mul_div]

end Cert.Attn

end
-- ==== Proof.LibDot2.lean ====
/-
  The host's rank-2 by rank-2 `dot_general`, read at an index at the ideal values.

  For a dimension record that contracts the left operand's second axis against the right operand's first, with no batch
  axis, the product of an [M, K] and a [K, N] matrix read at (p, h) is the plain sum  Σₖ a (p, k) · b (k, h)  over the
  extended reals: the host's product has no accumulator. The record's four coordinate facts (which operand coordinate is
  the output's row, the output's column, the contraction index) are hypotheses, decided on a literal record by whoever
  instantiates the lemma. The same sum is what a matrix unit's product into a zero accumulator reads, so the two meet.
-/
import Idealize.ShloMosaic.PureOps.Ideal.Laws
import Idealize.ShloMosaic.Lib.ValueIdx

noncomputable section

namespace Cert.LibDot2

open Idealize.ShloMosaic Idealize.ShloMosaic.ValueIdx

/-- The host's matrix product at (p, h) is Σₖ a (p, k) · b (k, h). -/
theorem hostDot_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    Host.dotGeneral D none a b (ix2 p h) = ∑ k : Fin K, a (ix2 p k) * b (ix2 k h) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibDot2

end
-- ==== Proof.Blocks.lean ====
/-
  What the attention kernel's three input windows hold, and what the host wrote into their arrays before the kernel runs.

  The encoder rows window cuts the [32768, 1024] matrix into 16 tiles of 2048 rows: entry (j, h) of tile t is entry
  (2048 t + j, h) of the matrix. The weight-row window and the bias window hold their whole arrays at every grid point.
  The matrix is the [32768, 1, 1024] argument with its unit axis dropped; the weight row is the second half of the
  [1, 2048] weight argument; the bias is the decoder state against the first half of the weight argument, plus the
  scalar bias argument.
-/
import proofs.«166729_j42322607735440_1_alg».proof.Proof.Gen.KernelIdeal.Frame
import proofs.«166729_j42322607735440_1_alg».proof.Proof.SoftmaxReal
import proofs.«166729_j42322607735440_1_alg».proof.Proof.LibDot2
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx

section
variable {F : FTy → Type} [FloatOps F]
variable (m : (ℓ : Loc nD τ sig) → Buf (Elt F) ℓ)

/-- Tile `t` of the encoder rows, as the kernel's first window stages it. -/
abbrev encBlk (c : Dev nD) (t : Fin cfg0.N) : Vec F S2048x1024 .f32 := iblk m c 0 t
/-- The weight row, as the second window stages it. -/
abbrev wBlk (c : Dev nD) (t : Fin cfg0.N) : Vec F S1x1024 .f32 := iblk m c 1 t
/-- The bias, as the third window stages it. -/
abbrev biasBlk (c : Dev nD) (t : Fin cfg0.N) : Vec F S1x1 .f32 := iblk m c 2 t
/-- The encoder rows as a [32768, 1024] matrix: what the host's reshape wrote. -/
abbrev encArr (c : Dev nD) : Vec F S32768x1024 .f32 := V m c main_v0
/-- The encoder half of the weight argument: what the host's second slice wrote. -/
abbrev wArr (c : Dev nD) : Vec F S1x1024 .f32 := V m c main_v2
/-- The bias: what the host's product and sum wrote. -/
abbrev biasArr (c : Dev nD) : Vec F S1x1 .f32 := V m c main_v6

/-- The four arguments, each at its literal type. -/
abbrev decArg (c : Dev nD) : Vec F S1x1024 .f32 := m ((c.tc : Thread nD τ).loc main_arg0)
abbrev encArg (c : Dev nD) : Vec F S32768x1x1024 .f32 := m ((c.tc : Thread nD τ).loc main_arg1)
abbrev wArg (c : Dev nD) : Vec F S1x2048 .f32 := m ((c.tc : Thread nD τ).loc main_arg2)
abbrev bArg (c : Dev nD) : Vec F S1 .f32 := m ((c.tc : Thread nD τ).loc main_arg3)

/-- The index maps of the three input windows, decided over the grid. -/
theorem idx_facts : ∀ t : Fin grid0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) := by decide +kernel

/-- Entry (j, h) of tile `t` is entry (2048 t + j, h) of the matrix. -/
theorem encBlk_apply (c : Dev nD) (t : Fin cfg0.N) (j : Fin 2048) (h : Fin 1024) :
    encBlk m c t (ix2 j h) = encArr m c (ix2 (Cert.Attn.rowN t.val j) h) := by
  have hN : cfg0.N = 16 := N_0
  have hi := (idx_facts t).1
  have ht : t.val < 16 := by have := t.isLt; omega
  unfold encBlk iblk
  rw [View.read_apply]
  show V m c main_v0 (((cfg0.win 0).blk t).view.emb (ix2 j h)) = V m c main_v0 (ix2 (Cert.Attn.rowN t.val j) h)
  congr 1
  funext a
  apply Fin.ext
  match a with
  | ⟨0, _⟩ =>
    show win0_0.index t 0 * 2048 + 1 * j.val = (Cert.Attn.rowN t.val j).val
    rw [hi.1, Cert.Attn.rowN_val _ ht]; omega
  | ⟨1, _⟩ =>
    show win0_0.index t 1 * 1024 + 1 * h.val = h.val
    rw [hi.2]; omega

/-- The weight-row window holds the whole weight row at every point. -/
theorem wBlk_eq (c : Dev nD) (t : Fin cfg0.N) : wBlk m c t = wArr m c := by
  have hi := (idx_facts t).2.1
  funext y
  unfold wBlk iblk
  rw [View.read_apply]
  show V m c main_v2 (((cfg0.win 1).blk t).view.emb y) = V m c main_v2 y
  congr 1
  funext a
  apply Fin.ext
  match a with
  | ⟨0, _⟩ =>
    show win0_1.index t 0 * 1 + 1 * (y 0).val = (y 0).val
    rw [hi.1]; omega
  | ⟨1, _⟩ =>
    show win0_1.index t 1 * 1024 + 1 * (y 1).val = (y 1).val
    rw [hi.2]; omega

/-- The bias window holds the bias at every point. -/
theorem biasBlk_eq (c : Dev nD) (t : Fin cfg0.N) : biasBlk m c t = biasArr m c := by
  have hi := (idx_facts t).2.2
  funext y
  unfold biasBlk iblk
  rw [View.read_apply]
  show V m c main_v6 (((cfg0.win 2).blk t).view.emb y) = V m c main_v6 y
  congr 1
  funext a
  apply Fin.ext
  match a with
  | ⟨0, _⟩ =>
    show win0_2.index t 0 * 1 + 1 * (y 0).val = (y 0).val
    rw [hi.1]; omega
  | ⟨1, _⟩ =>
    show win0_2.index t 1 * 1 + 1 * (y 1).val = (y 1).val
    rw [hi.2]; omega

/-- What the host's reshape wrote: the rank-3 argument recast. -/
theorem encArr_eq (c : Dev nD) :
    (V m c main_v0 : Vec F S32768x1024 .f32) = shapeCast _ (encArg m c) shapeCasts_S32768x1x1024_S32768x1024 := by
  show StableHlo.after hostOps0 (fun b => m (c, b)) (Proc.devRef .tc main_v0) = _
  after_results
  rfl

/-- What the host's second slice wrote. -/
theorem wArr_eq (c : Dev nD) :
    (V m c main_v2 : Vec F S1x1024 .f32)
      = extractStridedSlice S1x1024 ![0, 1024] (wArg m c) slices_S1x2048_S1x1024_0_1024 := by
  show StableHlo.after hostOps0 (fun b => m (c, b)) (Proc.devRef .tc main_v2) = _
  after_results

/-- The matrix is the rank-3 argument with its unit axis dropped. -/
theorem encArr_apply (c : Dev nD) (t : Fin 32768) (h : Fin 1024) :
    encArr m c (ix2 t h) = encArg m c (ix3 t (0 : Fin 1) h) := by
  unfold encArr
  rw [encArr_eq]
  exact shapeCast_apply (encArg m c) shapeCasts_S32768x1x1024_S32768x1024 (ix2 t h) (ix3 t (0 : Fin 1) h)
    (by rewrite [Shape.rowMajor_val_three, Shape.rowMajor_val_two]
        show (t.val * 1 + 0) * 1024 + h.val = t.val * 1024 + h.val
        omega)

/-- The weight row is the second half of the weight argument. -/
theorem wArr_apply (c : Dev nD) (h : Fin 1024) :
    wArr m c (ix2 (0 : Fin 1) h)
      = wArg m c (ix2 (0 : Fin 1) (⟨1024 + h.val, by have := h.isLt; omega⟩ : Fin 2048)) := by
  unfold wArr
  rw [wArr_eq]
  exact extractStridedSlice_apply ![0, 1024] (wArg m c) slices_S1x2048_S1x1024_0_1024 (ix2 (0 : Fin 1) h)
    (ix2 (0 : Fin 1) (⟨1024 + h.val, by have := h.isLt; omega⟩ : Fin 2048)) (fun a => match a with
    | ⟨0, _⟩ => by show (0 : Nat) = 0 + 0; omega
    | ⟨1, _⟩ => by show 1024 + h.val = 1024 + h.val; omega)

/-- What the host's product and sum wrote: the decoder state against the transposed first half of the weight argument,
    plus the bias argument spread over the one entry. -/
theorem biasArr_eq (c : Dev nD) :
    (V m c main_v6 : Vec F S1x1 .f32)
      = addf (Host.dotGeneral dot_S1x1024_S1024x1_S1x1_1_0_0_1_n_n none (decArg m c)
          (transpose S1024x1 [1, 0] (extractStridedSlice S1x1024 ![0, 0] (wArg m c) slices_S1x2048_S1x1024_0_0)
            transposes_S1x1024_S1024x1_1_0))
          (broadcastInDim S1x1 ![1] bcast_S1_S1x1_1 (bArg m c)) := by
  show StableHlo.after hostOps0 (fun b => m (c, b)) (Proc.devRef .tc main_v6) = _
  after_results
  try rfl

end

/-- The product's left operand is read at (row of the result, contracted index). -/
theorem dot_lhs_0 (i : S1x1.Idx) (q : dot_S1x1024_S1024x1_S1x1_1_0_0_1_n_n.contr.Idx) :
    (dot_S1x1024_S1024x1_S1x1_1_0_0_1_n_n.lhsIdx i q 0).val = (i 0).val := by
  unfold DotDims.lhsIdx
  rw [dif_neg (show ¬(0 : Fin S1x1024.rank) ∈ dot_S1x1024_S1024x1_S1x1_1_0_0_1_n_n.lhsBatch by decide),
    dif_pos (show (0 : Fin S1x1024.rank) ∈ dot_S1x1024_S1024x1_S1x1_1_0_0_1_n_n.lhsNonContracting by decide)]
  rfl
theorem dot_lhs_1 (i : S1x1.Idx) (q : dot_S1x1024_S1024x1_S1x1_1_0_0_1_n_n.contr.Idx) :
    (dot_S1x1024_S1024x1_S1x1_1_0_0_1_n_n.lhsIdx i q 1).val = (q ⟨0, by decide⟩).val :=
  dot_S1x1024_S1024x1_S1x1_1_0_0_1_n_n.lhsIdx_val_of_single rfl i q
/-- Its right operand at (contracted index, column of the result). -/
theorem dot_rhs_0 (i : S1x1.Idx) (q : dot_S1x1024_S1024x1_S1x1_1_0_0_1_n_n.contr.Idx) :
    (dot_S1x1024_S1024x1_S1x1_1_0_0_1_n_n.rhsIdx i q 0).val = (q ⟨0, by decide⟩).val :=
  dot_S1x1024_S1024x1_S1x1_1_0_0_1_n_n.rhsIdx_val_of_single rfl i q
theorem dot_rhs_1 (i : S1x1.Idx) (q : dot_S1x1024_S1024x1_S1x1_1_0_0_1_n_n.contr.Idx) :
    (dot_S1x1024_S1024x1_S1x1_1_0_0_1_n_n.rhsIdx i q 1).val = (i 1).val := by
  unfold DotDims.rhsIdx
  rw [dif_neg (show ¬(1 : Fin S1024x1.rank) ∈ dot_S1x1024_S1024x1_S1x1_1_0_0_1_n_n.rhsBatch by decide),
    dif_pos (show (1 : Fin S1024x1.rank) ∈ dot_S1x1024_S1024x1_S1x1_1_0_0_1_n_n.rhsNonContracting by decide)]
  rfl

/-- The bias, at the extended reals: the decoder state against the first half of the weight argument, plus the bias argument. -/
theorem biasArr_apply (m : (ℓ : Loc nD τ sig) → Buf (Elt Ideal) ℓ) (c : Dev nD) :
    biasArr m c (ix2 (0 : Fin 1) (0 : Fin 1))
      = (∑ o : Fin 1024, decArg m c (ix2 (0 : Fin 1) o) * wArg m c (ix2 (0 : Fin 1) (⟨o.val, by have := o.isLt; omega⟩ : Fin 2048)))
        + bArg m c (ix1 (0 : Fin 1)) := by
  unfold biasArr
  rw [biasArr_eq, addf_apply,
    Cert.LibDot2.hostDot_apply (M := 1) (K := 1024) (N := 1) dot_S1x1024_S1024x1_S1x1_1_0_0_1_n_n rfl rfl dot_lhs_0 dot_lhs_1 dot_rhs_0 dot_rhs_1]
  congr 1
  · refine Finset.sum_congr rfl fun o _ => ?_
    congr 1
    rw [transpose_apply [1, 0] _ transposes_S1x1024_S1024x1_1_0 (ix2 o (0 : Fin 1)) (ix2 (0 : Fin 1) o)
      (fun b => match b with
        | ⟨0, _⟩ => rfl
        | ⟨1, _⟩ => rfl)]
    exact extractStridedSlice_apply ![0, 0] (wArg m c) slices_S1x2048_S1x1024_0_0 (ix2 (0 : Fin 1) o)
      (ix2 (0 : Fin 1) (⟨o.val, by have := o.isLt; omega⟩ : Fin 2048)) (fun a => match a with
      | ⟨0, _⟩ => by show (0 : Nat) = 0 + 0; omega
      | ⟨1, _⟩ => by show o.val = 0 + o.val; omega)
  · exact broadcastInDim_apply _ bcast_S1_S1x1_1 (bArg m c) (ix2 (0 : Fin 1) (0 : Fin 1)) (ix1 (0 : Fin 1))
      (fun a => match a with
        | ⟨0, _⟩ => by show (0 : Nat) = if (1 : Nat) = 1 then 0 else 0; rw [if_pos rfl])

end Cert.KernelIdeal.Blocks

end
-- ==== Proof.Outputs.lean ====
/-
  What the attention kernel's four result arrays hold after the run, from what the body leaves at each grid point.

  The scores array [1, 32768] is written back block by block: point t writes columns 2048 t … 2048 t + 2047, and the 16
  blocks tile the array, so if each point's block is the matching stretch of one row G, the array ends as G. The three
  small results (the maximum, the denominator, the weighted sum) are written back once, after the last point, and their
  one block is the whole array: they end as what the last point leaves in their staging buffers.
-/
import proofs.«166729_j42322607735440_1_alg».proof.Proof.Gen.KernelIdeal.Frame
import proofs.«166729_j42322607735440_1_alg».proof.Proof.SoftmaxReal
import Idealize.ShloMosaic.Lib.Pipeline.Value
import Idealize.ShloMosaic.Lib.ValueIdx

noncomputable section

namespace Cert.KernelIdeal.Outputs

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-- The last grid point. -/
theorem lt15 : 15 < cfg0.N := by rw [show cfg0.N = 16 from N_0]; decide

/-- The four result arrays after the run, each at its literal type. -/
abbrev scoresOut (c : Dev nD) : Vec F S1x32768 .f32 := (dats m 0 c).arrAt 3 cfg0.N
abbrev maxOut (c : Dev nD) : Vec F S1x1 .f32 := (dats m 0 c).arrAt 4 cfg0.N
abbrev denOut (c : Dev nD) : Vec F S1x1 .f32 := (dats m 0 c).arrAt 5 cfg0.N
abbrev accOut (c : Dev nD) : Vec F S1x1024 .f32 := (dats m 0 c).arrAt 6 cfg0.N

/-- What the body leaves in the scores block, the maximum, denominator and weighted-sum outputs at point `n`. -/
abbrev scoresAt (c : Dev nD) (n : ℕ) (hn : n < cfg0.N) : Vec F S1x2048 .f32 := (outsAt0 m c n hn).1
abbrev maxAt (c : Dev nD) (n : ℕ) (hn : n < cfg0.N) : Vec F S1x1 .f32 := (outsAt0 m c n hn).2.1
abbrev denAt (c : Dev nD) (n : ℕ) (hn : n < cfg0.N) : Vec F S1x1 .f32 := (outsAt0 m c n hn).2.2.1
abbrev accAt (c : Dev nD) (n : ℕ) (hn : n < cfg0.N) : Vec F S1x1024 .f32 := (outsAt0 m c n hn).2.2.2.1

/-- The block indices of the scores window, decided over the grid: point `t` holds block (0, t), and no block is cut. -/
theorem idx_facts3 : ∀ t : Fin cfg0.N, win0_3.index t (0 : Fin 2) = 0 ∧ win0_3.index t (1 : Fin 2) = t.val
    ∧ win0_3.xsize (grid0.coords t) (0 : Fin 2) = 1 ∧ win0_3.xsize (grid0.coords t) (1 : Fin 2) = 2048 :=
  (by decide +kernel : ∀ t : Fin grid0.N, win0_3.index t (0 : Fin 2) = 0 ∧ win0_3.index t (1 : Fin 2) = t.val
    ∧ win0_3.xsize (grid0.coords t) (0 : Fin 2) = 1 ∧ win0_3.xsize (grid0.coords t) (1 : Fin 2) = 2048)

/-- The scores array ends as the row whose stretch `t` is what point `t` left in the scores block. -/
theorem scores_final (c : Dev nD) (G : Vec F S1x32768 .f32)
    (hG : ∀ (t : Fin cfg0.N) (j : Fin 2048),
      scoresAt m c t.val t.isLt (ix2 (0 : Fin 1) j) = G (ix2 (0 : Fin 1) (Cert.Attn.rowN t.val j))) :
    scoresOut m c = G := by
  have hN : cfg0.N = 16 := N_0
  refine (dats m 0 c).arrAt_eq_of_cover 3 G (fun t _ => ?_) (fun i => ?_)
  · -- what point `t` writes back is stretch `t` of `G`: element (0, j) of the block sits at (0, 2048 t + j)
    show (cfg0.win 3).cut (grid0.coords t) ((dats m 0 c).after 3 t) = _
    rw [after0_3]
    obtain ⟨e0, e1, e2, e3⟩ := idx_facts3 t
    have ht : t.val < 16 := by have := t.isLt; omega
    funext y
    rw [View.read_apply]
    have hy0 : (y 0).val < 1 := Nat.lt_of_lt_of_le (y 0).isLt (win0_3.xsize_le (grid0.coords t) 0)
    have hy1 : (y 1).val < 2048 := Nat.lt_of_lt_of_le (y 1).isLt (win0_3.xsize_le (grid0.coords t) 1)
    have hx : (cfg0.win 3).xinj (grid0.coords t) y = ix2 (0 : Fin 1) (⟨(y 1).val, hy1⟩ : Fin 2048) := by
      funext a; apply Fin.ext
      match a with
      | ⟨0, _⟩ => show (y 0).val = 0; omega
      | ⟨1, _⟩ => rfl
    show (outsAt0 m c t.val t.isLt).1 ((cfg0.win 3).xinj (grid0.coords t) y) = G (((cfg0.win 3).blk t).view.emb y)
    rw [hx]
    refine (hG t ⟨(y 1).val, hy1⟩).trans ?_
    congr 1
    funext a; apply Fin.ext
    match a with
    | ⟨0, _⟩ => show (0 : Nat) = win0_3.index t (0 : Fin 2) * 1 + 1 * (y 0).val; rw [e0]; omega
    | ⟨1, _⟩ => show (Cert.Attn.rowN t.val ⟨(y 1).val, hy1⟩).val = win0_3.index t (1 : Fin 2) * 2048 + 1 * (y 1).val
                rw [e1, Cert.Attn.rowN_val _ ht]; show t.val * 2048 + (y 1).val = t.val * 2048 + 1 * (y 1).val; omega
  · -- column `i 1` lies in the block of point `(i 1) / 2048`
    have hi0 : (i 0 : Nat) < 1 := (i 0).isLt
    have hi1 : (i 1 : Nat) < 32768 := (i 1).isLt
    have htt : (i 1 : Nat) / 2048 < cfg0.N := by omega
    obtain ⟨e0, e1, e2, e3⟩ := idx_facts3 ⟨(i 1 : Nat) / 2048, htt⟩
    refine ⟨⟨(i 1 : Nat) / 2048, htt⟩, flush0_3 _, ?_⟩
    show i ∈ ((View.whole main_v7_0).slice (win0_3.rect ⟨(i 1 : Nat) / 2048, htt⟩)).set
    rw [View.set_slice_whole, Rect.mem_set_unit]
    intro a
    match a with
    | ⟨0, _⟩ => show win0_3.index ⟨(i 1 : Nat) / 2048, htt⟩ 0 * win0_3.size 0 ≤ (i 0 : Nat) ∧ (i 0 : Nat) < win0_3.index ⟨(i 1 : Nat) / 2048, htt⟩ 0 * win0_3.size 0 + win0_3.xsize (grid0.coords ⟨(i 1 : Nat) / 2048, htt⟩) 0
                rw [e0, e2]; omega
    | ⟨1, _⟩ => show win0_3.index ⟨(i 1 : Nat) / 2048, htt⟩ 1 * win0_3.size 1 ≤ (i 1 : Nat) ∧ (i 1 : Nat) < win0_3.index ⟨(i 1 : Nat) / 2048, htt⟩ 1 * win0_3.size 1 + win0_3.xsize (grid0.coords ⟨(i 1 : Nat) / 2048, htt⟩) 1
                rw [e1, e3]; show (i 1 : Nat) / 2048 * 2048 ≤ (i 1 : Nat) ∧ (i 1 : Nat) < (i 1 : Nat) / 2048 * 2048 + 2048; omega

/-- The maximum result ends as what the last point left in its staging buffer. -/
theorem max_final (c : Dev nD) : maxOut m c = maxAt m c 15 lt15 := by
  refine (dats m 0 c).arrAt_eq_of_cover 4 _ (fun t hf => ?_) (fun i => ⟨t0_15, (flush0_4 t0_15).mpr rfl, ?_⟩)
  · have hN : cfg0.N = 16 := N_0
    have h15 : t.val = 15 := by have := (flush0_4 t).mp hf; have := t.isLt; omega
    obtain rfl : t = t0_15 := Fin.ext h15
    show (cfg0.win 4).cut (grid0.coords t0_15) ((dats m 0 c).after 4 t0_15) = _
    rw [after0_4]
    have hz' : (fun a => win0_4.index t0_15 a * main_v7_1.ty.shape.size a) = fun _ => 0 := funext fun a => by fin_cases a <;> decide
    exact (Memref.read_access_unit_zero (Elt F) main_v7_1 hz' (fun a => by rw [congrFun hz' a]; simp) _).symm
  · show i ∈ ((View.whole main_v7_1).slice (win0_4.rect t0_15)).set
    rw [View.set_slice_whole, Rect.mem_set_unit]
    intro a
    have h0 : (i 0 : Nat) < 1 := (i 0).isLt
    have h1 : (i 1 : Nat) < 1 := (i 1).isLt
    match a with
    | ⟨0, _⟩ => show win0_4.index t0_15 0 * win0_4.size 0 ≤ (i 0 : Nat) ∧ (i 0 : Nat) < win0_4.index t0_15 0 * win0_4.size 0 + win0_4.xsize (grid0.coords t0_15) 0
                rw [show win0_4.index t0_15 0 * win0_4.size 0 = 0 from by decide +kernel, show win0_4.xsize (grid0.coords t0_15) 0 = 1 from by decide +kernel]; omega
    | ⟨1, _⟩ => show win0_4.index t0_15 1 * win0_4.size 1 ≤ (i 1 : Nat) ∧ (i 1 : Nat) < win0_4.index t0_15 1 * win0_4.size 1 + win0_4.xsize (grid0.coords t0_15) 1
                rw [show win0_4.index t0_15 1 * win0_4.size 1 = 0 from by decide +kernel, show win0_4.xsize (grid0.coords t0_15) 1 = 1 from by decide +kernel]; omega

/-- The denominator result likewise. -/
theorem den_final (c : Dev nD) : denOut m c = denAt m c 15 lt15 := by
  refine (dats m 0 c).arrAt_eq_of_cover 5 _ (fun t hf => ?_) (fun i => ⟨t0_15, (flush0_5 t0_15).mpr rfl, ?_⟩)
  · have hN : cfg0.N = 16 := N_0
    have h15 : t.val = 15 := by have := (flush0_5 t).mp hf; have := t.isLt; omega
    obtain rfl : t = t0_15 := Fin.ext h15
    show (cfg0.win 5).cut (grid0.coords t0_15) ((dats m 0 c).after 5 t0_15) = _
    rw [after0_5]
    have hz' : (fun a => win0_5.index t0_15 a * main_v7_2.ty.shape.size a) = fun _ => 0 := funext fun a => by fin_cases a <;> decide
    exact (Memref.read_access_unit_zero (Elt F) main_v7_2 hz' (fun a => by rw [congrFun hz' a]; simp) _).symm
  · show i ∈ ((View.whole main_v7_2).slice (win0_5.rect t0_15)).set
    rw [View.set_slice_whole, Rect.mem_set_unit]
    intro a
    have h0 : (i 0 : Nat) < 1 := (i 0).isLt
    have h1 : (i 1 : Nat) < 1 := (i 1).isLt
    match a with
    | ⟨0, _⟩ => show win0_5.index t0_15 0 * win0_5.size 0 ≤ (i 0 : Nat) ∧ (i 0 : Nat) < win0_5.index t0_15 0 * win0_5.size 0 + win0_5.xsize (grid0.coords t0_15) 0
                rw [show win0_5.index t0_15 0 * win0_5.size 0 = 0 from by decide +kernel, show win0_5.xsize (grid0.coords t0_15) 0 = 1 from by decide +kernel]; omega
    | ⟨1, _⟩ => show win0_5.index t0_15 1 * win0_5.size 1 ≤ (i 1 : Nat) ∧ (i 1 : Nat) < win0_5.index t0_15 1 * win0_5.size 1 + win0_5.xsize (grid0.coords t0_15) 1
                rw [show win0_5.index t0_15 1 * win0_5.size 1 = 0 from by decide +kernel, show win0_5.xsize (grid0.coords t0_15) 1 = 1 from by decide +kernel]; omega

/-- The weighted-sum result likewise. -/
theorem acc_final (c : Dev nD) : accOut m c = accAt m c 15 lt15 := by
  refine (dats m 0 c).arrAt_eq_of_cover 6 _ (fun t hf => ?_) (fun i => ⟨t0_15, (flush0_6 t0_15).mpr rfl, ?_⟩)
  · have hN : cfg0.N = 16 := N_0
    have h15 : t.val = 15 := by have := (flush0_6 t).mp hf; have := t.isLt; omega
    obtain rfl : t = t0_15 := Fin.ext h15
    show (cfg0.win 6).cut (grid0.coords t0_15) ((dats m 0 c).after 6 t0_15) = _
    rw [after0_6]
    have hz' : (fun a => win0_6.index t0_15 a * main_v7_3.ty.shape.size a) = fun _ => 0 := funext fun a => by fin_cases a <;> decide
    exact (Memref.read_access_unit_zero (Elt F) main_v7_3 hz' (fun a => by rw [congrFun hz' a]; simp) _).symm
  · show i ∈ ((View.whole main_v7_3).slice (win0_6.rect t0_15)).set
    rw [View.set_slice_whole, Rect.mem_set_unit]
    intro a
    have h0 : (i 0 : Nat) < 1 := (i 0).isLt
    have h1 : (i 1 : Nat) < 1024 := (i 1).isLt
    match a with
    | ⟨0, _⟩ => show win0_6.index t0_15 0 * win0_6.size 0 ≤ (i 0 : Nat) ∧ (i 0 : Nat) < win0_6.index t0_15 0 * win0_6.size 0 + win0_6.xsize (grid0.coords t0_15) 0
                rw [show win0_6.index t0_15 0 * win0_6.size 0 = 0 from by decide +kernel, show win0_6.xsize (grid0.coords t0_15) 0 = 1 from by decide +kernel]; omega
    | ⟨1, _⟩ => show win0_6.index t0_15 1 * win0_6.size 1 ≤ (i 1 : Nat) ∧ (i 1 : Nat) < win0_6.index t0_15 1 * win0_6.size 1 + win0_6.xsize (grid0.coords t0_15) 1
                rw [show win0_6.index t0_15 1 * win0_6.size 1 = 0 from by decide +kernel, show win0_6.xsize (grid0.coords t0_15) 1 = 1024 from by decide +kernel]; omega

end Cert.KernelIdeal.Outputs

end
-- ==== Proof.Carried.lean ====
/-
  The attention kernel's grid run as the tile-by-tile softmax.

  Point by point the body's run leaves, in the scores block, the tile's scores, and in the three carried buffers the
  running maximum, denominator and weighted sum of the tile-by-tile softmax over the tiles seen so far: at the first
  point from the reset values, at every later point from what the point before left. With the encoder matrix, the
  weight row and the bias finite numbers, these are the real recurrences M, L, A of the tile-by-tile softmax, by
  induction on the point; at the last point the three small outputs receive the final values.
-/
import proofs.«166729_j42322607735440_1_alg».proof.Proof.Pieces
import proofs.«166729_j42322607735440_1_alg».proof.Proof.TileStep
import proofs.«166729_j42322607735440_1_alg».proof.Proof.Blocks
import proofs.«166729_j42322607735440_1_alg».proof.Proof.Outputs
import proofs.«166729_j42322607735440_1_alg».proof.Proof.SoftmaxReal

noncomputable section

namespace Cert.KernelIdeal.Carried

open Cert.KernelIdeal Cert.KernelIdeal.Gen Cert.KernelIdeal.Blocks Cert.KernelIdeal.Outputs Cert.KernelIdeal.Pieces
open Cert.KernelIdeal.TileIdx Cert.KernelIdeal.TileValue Cert.Attn
open Idealize.ShloMosaic Idealize.ShloMosaic.TcCoe Idealize.SL.Sem Idealize.ShloMosaic.ValueIdx Finset

variable (m : (ℓ : Loc nD τ sig) → Buf (Elt Ideal) ℓ)

/-- The carried running maximum, denominator and weighted sum after point `n`, each at its literal type. -/
abbrev mScr (c : Dev nD) (n : ℕ) (hn : n < cfg0.N) : Vec Ideal S1x1 .f32 := (outsAt0 m c n hn).2.2.2.2.1
abbrev lScr (c : Dev nD) (n : ℕ) (hn : n < cfg0.N) : Vec Ideal S1x1 .f32 := (outsAt0 m c n hn).2.2.2.2.2.1
abbrev aScr (c : Dev nD) (n : ℕ) (hn : n < cfg0.N) : Vec Ideal S1x1024 .f32 := (outsAt0 m c n hn).2.2.2.2.2.2

theorem prevLt (t : Fin cfg0.N) : t.val - 1 < cfg0.N := Nat.lt_of_le_of_lt (Nat.sub_le _ _) t.isLt

/-! ## Each point's contents as the body's values of the point's blocks -/

/-- The first point: from the reset values. -/
theorem at_first (c : Dev nD) (t : Fin cfg0.N) (h0 : t.val % 16 = 0) (h1 : ¬t.val % 16 = 15) :
    scoresAt m c t.val t.isLt = k0_pay7 (encBlk m c t) (wBlk m c t) (biasBlk m c t)
    ∧ mScr m c t.val t.isLt = k0_pay8 (encBlk m c t) (wBlk m c t) (biasBlk m c t) (k0_pay3 (F := Ideal))
    ∧ lScr m c t.val t.isLt = k0_pay11 (encBlk m c t) (wBlk m c t) (biasBlk m c t) (k0_pay3 (F := Ideal)) (k0_pay4 (F := Ideal))
    ∧ aScr m c t.val t.isLt = k0_pay12 (encBlk m c t) (wBlk m c t) (biasBlk m c t) (k0_pay3 (F := Ideal)) (k0_pay5 (F := Ideal)) := by
  refine ⟨?_, ?_, ?_, ?_⟩
  · show (outsAt0 m c t.val t.isLt).1 = _
    rw [outsAt0_A m c t h0 h1]; dsimp only
    exact (out0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (encBlk m c t) (wBlk m c t) (biasBlk m c t))
  · show (outsAt0 m c t.val t.isLt).2.2.2.2.1 = _
    rw [outsAt0_A m c t h0 h1]; dsimp only
    exact (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (encBlk m c t) (wBlk m c t) (biasBlk m c t)).trans (pay2_eq _)
  · show (outsAt0 m c t.val t.isLt).2.2.2.2.2.1 = _
    rw [outsAt0_A m c t h0 h1]; dsimp only
    exact (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (encBlk m c t) (wBlk m c t) (biasBlk m c t))
  · show (outsAt0 m c t.val t.isLt).2.2.2.2.2.2 = _
    rw [outsAt0_A m c t h0 h1]; dsimp only
    exact (sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (encBlk m c t) (wBlk m c t) (biasBlk m c t)).trans (pay1_eq _)

/-- A middle point: from what the point before left. -/
theorem at_middle (c : Dev nD) (t : Fin cfg0.N) (h0 : ¬t.val % 16 = 0) (h1 : ¬t.val % 16 = 15) :
    scoresAt m c t.val t.isLt = k0_pay7 (encBlk m c t) (wBlk m c t) (biasBlk m c t)
    ∧ mScr m c t.val t.isLt = k0_pay8 (encBlk m c t) (wBlk m c t) (biasBlk m c t) (mScr m c (t.val - 1) (prevLt t))
    ∧ lScr m c t.val t.isLt = k0_pay11 (encBlk m c t) (wBlk m c t) (biasBlk m c t) (mScr m c (t.val - 1) (prevLt t)) (lScr m c (t.val - 1) (prevLt t))
    ∧ aScr m c t.val t.isLt = k0_pay12 (encBlk m c t) (wBlk m c t) (biasBlk m c t) (mScr m c (t.val - 1) (prevLt t)) (aScr m c (t.val - 1) (prevLt t)) := by
  refine ⟨?_, ?_, ?_, ?_⟩
  · show (outsAt0 m c t.val t.isLt).1 = _
    rw [outsAt0_B m c t h0 h1]; dsimp only
    exact (out0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (encBlk m c t) (wBlk m c t) (biasBlk m c t) (mScr m c (t.val - 1) (prevLt t)) (lScr m c (t.val - 1) (prevLt t)) (aScr m c (t.val - 1) (prevLt t)))
  · show (outsAt0 m c t.val t.isLt).2.2.2.2.1 = _
    rw [outsAt0_B m c t h0 h1]; dsimp only
    exact (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (encBlk m c t) (wBlk m c t) (biasBlk m c t) (mScr m c (t.val - 1) (prevLt t)) (lScr m c (t.val - 1) (prevLt t)) (aScr m c (t.val - 1) (prevLt t))).trans (pay2_eq _)
  · show (outsAt0 m c t.val t.isLt).2.2.2.2.2.1 = _
    rw [outsAt0_B m c t h0 h1]; dsimp only
    exact (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (encBlk m c t) (wBlk m c t) (biasBlk m c t) (mScr m c (t.val - 1) (prevLt t)) (lScr m c (t.val - 1) (prevLt t)) (aScr m c (t.val - 1) (prevLt t)))
  · show (outsAt0 m c t.val t.isLt).2.2.2.2.2.2 = _
    rw [outsAt0_B m c t h0 h1]; dsimp only
    exact (sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (encBlk m c t) (wBlk m c t) (biasBlk m c t) (mScr m c (t.val - 1) (prevLt t)) (lScr m c (t.val - 1) (prevLt t)) (aScr m c (t.val - 1) (prevLt t))).trans (pay1_eq _)

/-- The last point: as a middle point, and the three small outputs receive the carried values. -/
theorem at_last (c : Dev nD) (t : Fin cfg0.N) (h0 : ¬t.val % 16 = 0) (h1 : t.val % 16 = 15) :
    (scoresAt m c t.val t.isLt = k0_pay7 (encBlk m c t) (wBlk m c t) (biasBlk m c t)
    ∧ mScr m c t.val t.isLt = k0_pay8 (encBlk m c t) (wBlk m c t) (biasBlk m c t) (mScr m c (t.val - 1) (prevLt t))
    ∧ lScr m c t.val t.isLt = k0_pay11 (encBlk m c t) (wBlk m c t) (biasBlk m c t) (mScr m c (t.val - 1) (prevLt t)) (lScr m c (t.val - 1) (prevLt t))
    ∧ aScr m c t.val t.isLt = k0_pay12 (encBlk m c t) (wBlk m c t) (biasBlk m c t) (mScr m c (t.val - 1) (prevLt t)) (aScr m c (t.val - 1) (prevLt t)))
    ∧ maxAt m c t.val t.isLt = mScr m c t.val t.isLt
    ∧ denAt m c t.val t.isLt = lScr m c t.val t.isLt
    ∧ accAt m c t.val t.isLt = aScr m c t.val t.isLt := by
  have e0 : mScr m c t.val t.isLt = k0_pay2 (k0_pay8 (encBlk m c t) (wBlk m c t) (biasBlk m c t) (mScr m c (t.val - 1) (prevLt t))) := by
    show (outsAt0 m c t.val t.isLt).2.2.2.2.1 = _
    rw [outsAt0_C m c t h0 h1]; dsimp only
    exact (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (encBlk m c t) (wBlk m c t) (biasBlk m c t) (mScr m c (t.val - 1) (prevLt t)) (lScr m c (t.val - 1) (prevLt t)) (aScr m c (t.val - 1) (prevLt t)))
  have e1 : lScr m c t.val t.isLt = k0_pay11 (encBlk m c t) (wBlk m c t) (biasBlk m c t) (mScr m c (t.val - 1) (prevLt t)) (lScr m c (t.val - 1) (prevLt t)) := by
    show (outsAt0 m c t.val t.isLt).2.2.2.2.2.1 = _
    rw [outsAt0_C m c t h0 h1]; dsimp only
    exact (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (encBlk m c t) (wBlk m c t) (biasBlk m c t) (mScr m c (t.val - 1) (prevLt t)) (lScr m c (t.val - 1) (prevLt t)) (aScr m c (t.val - 1) (prevLt t)))
  have e2 : aScr m c t.val t.isLt = k0_pay1 (k0_pay12 (encBlk m c t) (wBlk m c t) (biasBlk m c t) (mScr m c (t.val - 1) (prevLt t)) (aScr m c (t.val - 1) (prevLt t))) := by
    show (outsAt0 m c t.val t.isLt).2.2.2.2.2.2 = _
    rw [outsAt0_C m c t h0 h1]; dsimp only
    exact (sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (encBlk m c t) (wBlk m c t) (biasBlk m c t) (mScr m c (t.val - 1) (prevLt t)) (lScr m c (t.val - 1) (prevLt t)) (aScr m c (t.val - 1) (prevLt t)))
  refine ⟨⟨?_, e0.trans (pay2_eq _), e1, e2.trans (pay1_eq _)⟩, ?_, ?_, ?_⟩
  · show (outsAt0 m c t.val t.isLt).1 = _
    rw [outsAt0_C m c t h0 h1]; dsimp only
    exact (out0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (encBlk m c t) (wBlk m c t) (biasBlk m c t) (mScr m c (t.val - 1) (prevLt t)) (lScr m c (t.val - 1) (prevLt t)) (aScr m c (t.val - 1) (prevLt t)))
  · refine Eq.trans ?_ e0.symm
    show (outsAt0 m c t.val t.isLt).2.1 = _
    rw [outsAt0_C m c t h0 h1]; dsimp only
    exact (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (encBlk m c t) (wBlk m c t) (biasBlk m c t) (mScr m c (t.val - 1) (prevLt t)) (lScr m c (t.val - 1) (prevLt t)) (aScr m c (t.val - 1) (prevLt t)))
  · refine Eq.trans ?_ e1.symm
    show (outsAt0 m c t.val t.isLt).2.2.1 = _
    rw [outsAt0_C m c t h0 h1]; dsimp only
    exact (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (encBlk m c t) (wBlk m c t) (biasBlk m c t) (mScr m c (t.val - 1) (prevLt t)) (lScr m c (t.val - 1) (prevLt t)) (aScr m c (t.val - 1) (prevLt t)))
  · refine Eq.trans ?_ e2.symm
    show (outsAt0 m c t.val t.isLt).2.2.2.1 = _
    rw [outsAt0_C m c t h0 h1]; dsimp only
    exact (out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (encBlk m c t) (wBlk m c t) (biasBlk m c t) (mScr m c (t.val - 1) (prevLt t)) (lScr m c (t.val - 1) (prevLt t)) (aScr m c (t.val - 1) (prevLt t)))

/-! ## Over finite numbers: the tile-by-tile softmax -/

/-- The scores over the reals: a row of the matrix against the weight row, plus the bias. -/
def sc (Xr : Fin 32768 → Fin 1024 → ℝ) (W : Fin 1024 → ℝ) (bb : ℝ) (t : Fin 32768) : ℝ := (∑ h : Fin 1024, W h * Xr t h) + bb

section
variable (c : Dev nD) (Xr : Fin 32768 → Fin 1024 → ℝ) (W : Fin 1024 → ℝ) (bb : ℝ)
variable (hX : ∀ (t : Fin 32768) (h : Fin 1024), encArr m c (ix2 t h) = ((Xr t h : ℝ) : EReal))
variable (hW : ∀ h : Fin 1024, wArr m c (ix2 (0 : Fin 1) h) = ((W h : ℝ) : EReal))
variable (hb : biasArr m c (ix2 (0 : Fin 1) (0 : Fin 1)) = ((bb : ℝ) : EReal))
include hX hW hb

/-- Tile `t`'s rows are finite: rows `2048 t …` of the matrix. -/
theorem blk_rows (t : Fin cfg0.N) (j : Fin 2048) (h : Fin 1024) :
    encBlk m c t (ix2 j h) = ((Xr (rowN t.val j) h : ℝ) : EReal) :=
  (encBlk_apply m c t j h).trans (hX _ h)

theorem blk_w (t : Fin cfg0.N) (h : Fin 1024) : wBlk m c t (ix2 (0 : Fin 1) h) = ((W h : ℝ) : EReal) :=
  (congrFun (wBlk_eq m c t) _).trans (hW h)

theorem blk_b (t : Fin cfg0.N) : biasBlk m c t (ix2 (0 : Fin 1) (0 : Fin 1)) = ((bb : ℝ) : EReal) :=
  (congrFun (biasBlk_eq m c t) _).trans hb

/-- After point `n` the scores block holds tile `n`'s scores and the carried buffers hold the running maximum,
    denominator and weighted sum of the tile-by-tile softmax. -/
theorem carried : ∀ (n : ℕ) (hn : n < cfg0.N),
    (∀ j : Fin 2048, scoresAt m c n hn (ix2 (0 : Fin 1) j) = ((sc Xr W bb (rowN n j) : ℝ) : EReal))
    ∧ mScr m c n hn (ix2 (0 : Fin 1) (0 : Fin 1)) = ((M (sc Xr W bb) n : ℝ) : EReal)
    ∧ lScr m c n hn (ix2 (0 : Fin 1) (0 : Fin 1)) = ((L (sc Xr W bb) n : ℝ) : EReal)
    ∧ ∀ h : Fin 1024, aScr m c n hn (ix2 (0 : Fin 1) h) = ((A (sc Xr W bb) Xr n h : ℝ) : EReal)
  | 0, hn => by
    obtain ⟨e3, e0, e1, e2⟩ := at_first m c ⟨0, hn⟩ (Nat.zero_mod 16) (by show ¬(0 % 16 = 15); decide)
    refine ⟨fun j => ?_, ?_, ?_, fun h => ?_⟩
    · refine (congrFun e3 (ix2 (0 : Fin 1) j)).trans ?_
      exact scores_apply _ _ _ (fun j h => Xr (rowN 0 j) h) W bb (blk_rows m c Xr W bb hX hW hb ⟨0, hn⟩) (blk_w m c Xr W bb hX hW hb ⟨0, hn⟩) (blk_b m c Xr W bb hX hW hb ⟨0, hn⟩) j
    · refine (congrFun e0 (ix2 (0 : Fin 1) (0 : Fin 1))).trans ?_
      exact max_first _ _ _ (fun j h => Xr (rowN 0 j) h) W bb (blk_rows m c Xr W bb hX hW hb ⟨0, hn⟩) (blk_w m c Xr W bb hX hW hb ⟨0, hn⟩) (blk_b m c Xr W bb hX hW hb ⟨0, hn⟩)
    · refine (congrFun e1 (ix2 (0 : Fin 1) (0 : Fin 1))).trans ?_
      exact den_first _ _ _ (fun j h => Xr (rowN 0 j) h) W bb (blk_rows m c Xr W bb hX hW hb ⟨0, hn⟩) (blk_w m c Xr W bb hX hW hb ⟨0, hn⟩) (blk_b m c Xr W bb hX hW hb ⟨0, hn⟩)
    · refine (congrFun e2 (ix2 (0 : Fin 1) h)).trans ?_
      exact acc_first _ _ _ (fun j h => Xr (rowN 0 j) h) W bb (blk_rows m c Xr W bb hX hW hb ⟨0, hn⟩) (blk_w m c Xr W bb hX hW hb ⟨0, hn⟩) (blk_b m c Xr W bb hX hW hb ⟨0, hn⟩) h
  | n + 1, hn => by
    have hN : cfg0.N = 16 := N_0
    have hlt : n + 1 < 16 := hN ▸ hn
    obtain ⟨-, ih0, ih1, ih2⟩ := carried n (Nat.lt_of_succ_lt hn)
    have h0 : ¬(⟨n + 1, hn⟩ : Fin cfg0.N).val % 16 = 0 := by show ¬((n + 1) % 16 = 0); omega
    have hstep : scoresAt m c (n + 1) hn = k0_pay7 (encBlk m c ⟨n + 1, hn⟩) (wBlk m c ⟨n + 1, hn⟩) (biasBlk m c ⟨n + 1, hn⟩)
        ∧ mScr m c (n + 1) hn = k0_pay8 (encBlk m c ⟨n + 1, hn⟩) (wBlk m c ⟨n + 1, hn⟩) (biasBlk m c ⟨n + 1, hn⟩) (mScr m c n (Nat.lt_of_succ_lt hn))
        ∧ lScr m c (n + 1) hn = k0_pay11 (encBlk m c ⟨n + 1, hn⟩) (wBlk m c ⟨n + 1, hn⟩) (biasBlk m c ⟨n + 1, hn⟩) (mScr m c n (Nat.lt_of_succ_lt hn)) (lScr m c n (Nat.lt_of_succ_lt hn))
        ∧ aScr m c (n + 1) hn = k0_pay12 (encBlk m c ⟨n + 1, hn⟩) (wBlk m c ⟨n + 1, hn⟩) (biasBlk m c ⟨n + 1, hn⟩) (mScr m c n (Nat.lt_of_succ_lt hn)) (aScr m c n (Nat.lt_of_succ_lt hn)) := by
      by_cases h1 : (⟨n + 1, hn⟩ : Fin cfg0.N).val % 16 = 15
      · exact (at_last m c ⟨n + 1, hn⟩ h0 h1).1
      · exact at_middle m c ⟨n + 1, hn⟩ h0 h1
    obtain ⟨e3, e0, e1, e2⟩ := hstep
    refine ⟨fun j => ?_, ?_, ?_, fun h => ?_⟩
    · refine (congrFun e3 (ix2 (0 : Fin 1) j)).trans ?_
      exact scores_apply _ _ _ (fun j h => Xr (rowN (n + 1) j) h) W bb (blk_rows m c Xr W bb hX hW hb ⟨n + 1, hn⟩) (blk_w m c Xr W bb hX hW hb ⟨n + 1, hn⟩) (blk_b m c Xr W bb hX hW hb ⟨n + 1, hn⟩) j
    · refine (congrFun e0 (ix2 (0 : Fin 1) (0 : Fin 1))).trans ?_
      exact max_next _ _ _ (fun j h => Xr (rowN (n + 1) j) h) W bb (blk_rows m c Xr W bb hX hW hb ⟨n + 1, hn⟩) (blk_w m c Xr W bb hX hW hb ⟨n + 1, hn⟩) (blk_b m c Xr W bb hX hW hb ⟨n + 1, hn⟩) _ (M (sc Xr W bb) n) ih0
    · refine (congrFun e1 (ix2 (0 : Fin 1) (0 : Fin 1))).trans ?_
      exact den_next _ _ _ (fun j h => Xr (rowN (n + 1) j) h) W bb (blk_rows m c Xr W bb hX hW hb ⟨n + 1, hn⟩) (blk_w m c Xr W bb hX hW hb ⟨n + 1, hn⟩) (blk_b m c Xr W bb hX hW hb ⟨n + 1, hn⟩) _ _ (M (sc Xr W bb) n) (L (sc Xr W bb) n) ih0 ih1
    · refine (congrFun e2 (ix2 (0 : Fin 1) h)).trans ?_
      exact acc_next _ _ _ (fun j h => Xr (rowN (n + 1) j) h) W bb (blk_rows m c Xr W bb hX hW hb ⟨n + 1, hn⟩) (blk_w m c Xr W bb hX hW hb ⟨n + 1, hn⟩) (blk_b m c Xr W bb hX hW hb ⟨n + 1, hn⟩) _ _ (M (sc Xr W bb) n) (A (sc Xr W bb) Xr n) ih0 ih2 h

/-- After the last point the three small outputs hold the maximum of all the scores, the softmax denominator and the
    unnormalised weighted sum of the rows. -/
theorem last_values :
    maxAt m c 15 lt15 (ix2 (0 : Fin 1) (0 : Fin 1)) = ((mx (sc Xr W bb) : ℝ) : EReal)
    ∧ denAt m c 15 lt15 (ix2 (0 : Fin 1) (0 : Fin 1)) = ((den (sc Xr W bb) : ℝ) : EReal)
    ∧ ∀ h : Fin 1024, accAt m c 15 lt15 (ix2 (0 : Fin 1) h)
        = ((∑ t : Fin 32768, Real.exp (sc Xr W bb t - mx (sc Xr W bb)) * Xr t h : ℝ) : EReal) := by
  obtain ⟨-, f0, f1, f2⟩ := at_last m c ⟨15, lt15⟩ (by show ¬(15 % 16 = 0); decide) (by show 15 % 16 = 15; decide)
  obtain ⟨-, i0, i1, i2⟩ := carried m c Xr W bb hX hW hb 15 lt15
  refine ⟨?_, ?_, fun h => ?_⟩
  · rw [← M_last]; exact (congrFun f0 _).trans i0
  · rw [← L_last]; exact (congrFun f1 _).trans i1
  · rw [← A_last]; exact (congrFun f2 _).trans (i2 h)

/-- Every column of the scores array after the run is the score of its row. -/
theorem scores_value (t : Fin 32768) :
    scoresOut m c (ix2 (0 : Fin 1) t) = ((sc Xr W bb t : ℝ) : EReal) := by
  have e := scores_final m c (fun i : S1x32768.Idx => ((sc Xr W bb ⟨(i 1).val, idx2_lt1 i⟩ : ℝ) : EReal))
    (fun t j => (carried m c Xr W bb hX hW hb t.val t.isLt).1 j)
  exact congrFun e (ix2 (0 : Fin 1) t)

end

end Cert.KernelIdeal.Carried

end
-- ==== Proof.Tail.lean ====
/-
  The host operations after the attention kernel, and the program's run read as values.

  After the kernel the host computes the normalised weights  exp (score - max) / denominator  over the [1, 32768] scores
  and the output  weighted sum / denominator  over [1, 1024], broadcasting the [1, 1] maximum and denominator along the
  rows. Both results are these terms of the four arrays the kernel wrote.
-/
import proofs.«166729_j42322607735440_1_alg».proof.Proof.Outputs
import Idealize.ShloMosaic.Lib.StableHlo.Run
import Idealize.ShloMosaic.Lib.ValueLayout
import Idealize.ShloMosaic.PureOps.Ideal.Laws

noncomputable section

namespace Cert.KernelIdeal.Tail

open Cert.KernelIdeal Cert.KernelIdeal.Gen Cert.KernelIdeal.Outputs Idealize.ShloMosaic Idealize.ShloMosaic.TcCoe Idealize.SL.Sem
open Idealize.ShloMosaic.Pipeline (Dat)
open Idealize.ShloMosaic.ValueIdx

section
variable {F : FTy → Type} [FloatOps F]
variable (m : (ℓ : Loc nD τ sig) → Buf (Elt F) ℓ) (ρ : Dev nD → PrngReg)

/-- The normalised weights as the host computes them from the kernel's results. -/
abbrev wTerm (c : Dev nD) : Vec F S1x32768 .f32 :=
  Host.divf (Host.exp (subf (scoresOut m c) (broadcastInDim S1x32768 ![0, 1] bcast_S1x1_S1x32768_0_1 (maxOut m c))))
    (broadcastInDim S1x32768 ![0, 1] bcast_S1x1_S1x32768_0_1 (denOut m c))

/-- The output as the host computes it from the kernel's results. -/
abbrev outTerm (c : Dev nD) : Vec F S1x1024 .f32 :=
  Host.divf (accOut m c) (broadcastInDim S1x1024 ![0, 1] bcast_S1x1_S1x1024_0_1 (denOut m c))

/-- The kernel's four result arrays as the host tail reads them. -/
theorem read_scores (c : Dev nD) :
    Pipeline.withArrays (cfgs 0).spec c (V0 m c) (fun w => (dats m 0 c).arrAt w (cfgs 0).N) (Proc.devRef .tc main_v7_0)
      = scoresOut m c :=
  Pipeline.withArrays_arr spec0 launch0.win.arr_inj c _ _ (3 : Fin 7)

theorem read_max (c : Dev nD) :
    Pipeline.withArrays (cfgs 0).spec c (V0 m c) (fun w => (dats m 0 c).arrAt w (cfgs 0).N) (Proc.devRef .tc main_v7_1)
      = maxOut m c :=
  Pipeline.withArrays_arr spec0 launch0.win.arr_inj c _ _ (4 : Fin 7)

theorem read_den (c : Dev nD) :
    Pipeline.withArrays (cfgs 0).spec c (V0 m c) (fun w => (dats m 0 c).arrAt w (cfgs 0).N) (Proc.devRef .tc main_v7_2)
      = denOut m c :=
  Pipeline.withArrays_arr spec0 launch0.win.arr_inj c _ _ (5 : Fin 7)

theorem read_acc (c : Dev nD) :
    Pipeline.withArrays (cfgs 0).spec c (V0 m c) (fun w => (dats m 0 c).arrAt w (cfgs 0).N) (Proc.devRef .tc main_v7_3)
      = accOut m c :=
  Pipeline.withArrays_arr spec0 launch0.win.arr_inj c _ _ (6 : Fin 7)

/-- The weights buffer after the host tail. -/
theorem weights_tail (c : Dev nD) :
    Pipeline.afterTail₀ cfgs (dats m) 0 (V0 m) [hostOps1] c main_v12 = wTerm m c := by
  unfold Pipeline.afterTail₀
  show StableHlo.after hostOps1 _ (Proc.devRef .tc main_v12) = _
  after_results
  rw [read_scores m c, read_max m c, read_den m c]

/-- The output buffer after the host tail. -/
theorem output_tail (c : Dev nD) :
    Pipeline.afterTail₀ cfgs (dats m) 0 (V0 m) [hostOps1] c main_v14 = outTerm m c := by
  unfold Pipeline.afterTail₀
  show StableHlo.after hostOps1 _ (Proc.devRef .tc main_v14) = _
  after_results
  rw [read_acc m c, read_den m c]

/-- The run: every weakly fair execution terminates with the two results at these terms and the arguments unchanged. -/
theorem run : θ_run defs (onTc (τ := τ) (main (F := F))) ⟨m, fun _ => 0, ρ⟩ (fun r => ∀ c : Dev nD,
      r.2.mem ((c.tc : Thread nD τ).loc main_v14) = outTerm m c
      ∧ r.2.mem ((c.tc : Thread nD τ).loc main_v12) = wTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact
  (θ_run defs _ _).mono (fun r h c =>
    ⟨((h c).2 main_v14 (Pipeline.mem_restRefs_of main_v14 (by decide) (by decide))).trans (output_tail m c),
     ((h c).2 main_v12 (Pipeline.mem_restRefs_of main_v12 (by decide) (by decide))).trans (weights_tail m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end

/-! ## At the extended reals, index by index -/

section
variable {α : Type}

/-- A [1, 1] value broadcast along a row of 32768 reads its one entry everywhere. -/
theorem bcast_row_apply (v : S1x1.Idx → α) (t : Fin 32768) :
    broadcastInDim S1x32768 ![0, 1] bcast_S1x1_S1x32768_0_1 v (ix2 (0 : Fin 1) t) = v (ix2 (0 : Fin 1) (0 : Fin 1)) :=
  broadcastInDim_apply _ bcast_S1x1_S1x32768_0_1 v (ix2 (0 : Fin 1) t) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-- A [1, 1] value broadcast along a row of 1024 reads its one entry everywhere. -/
theorem bcast_out_apply (v : S1x1.Idx → α) (h : Fin 1024) :
    broadcastInDim S1x1024 ![0, 1] bcast_S1x1_S1x1024_0_1 v (ix2 (0 : Fin 1) h) = v (ix2 (0 : Fin 1) (0 : Fin 1)) :=
  broadcastInDim_apply _ bcast_S1x1_S1x1024_0_1 v (ix2 (0 : Fin 1) h) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

end

section

/-- The weights' term over any three vectors, read at an index: the two broadcasts read the one entry, the rest is pointwise. -/
theorem wForm_apply (s : FVec Ideal S1x32768 .f32) (mx dn : FVec Ideal S1x1 .f32) (t : Fin 32768) :
    Host.divf (F := Ideal) (φ := .f32) (Host.exp (subf s (broadcastInDim S1x32768 ![0, 1] bcast_S1x1_S1x32768_0_1 mx)))
        (broadcastInDim S1x32768 ![0, 1] bcast_S1x1_S1x32768_0_1 dn) (ix2 (0 : Fin 1) t)
      = Ideal.div (Ideal.exp (s (ix2 (0 : Fin 1) t) - mx (ix2 (0 : Fin 1) (0 : Fin 1)))) (dn (ix2 (0 : Fin 1) (0 : Fin 1))) := by
  show Ideal.div (Ideal.exp (s (ix2 (0 : Fin 1) t)
        - broadcastInDim S1x32768 ![0, 1] bcast_S1x1_S1x32768_0_1 mx (ix2 (0 : Fin 1) t)))
      (broadcastInDim S1x32768 ![0, 1] bcast_S1x1_S1x32768_0_1 dn (ix2 (0 : Fin 1) t)) = _
  rw [bcast_row_apply mx t, bcast_row_apply dn t]

/-- The output's term over any two vectors, read at an index. -/
theorem oForm_apply (a : FVec Ideal S1x1024 .f32) (dn : FVec Ideal S1x1 .f32) (h : Fin 1024) :
    Host.divf (F := Ideal) (φ := .f32) a (broadcastInDim S1x1024 ![0, 1] bcast_S1x1_S1x1024_0_1 dn) (ix2 (0 : Fin 1) h)
      = Ideal.div (a (ix2 (0 : Fin 1) h)) (dn (ix2 (0 : Fin 1) (0 : Fin 1))) := by
  show Ideal.div (a (ix2 (0 : Fin 1) h))
      (broadcastInDim S1x1024 ![0, 1] bcast_S1x1_S1x1024_0_1 dn (ix2 (0 : Fin 1) h)) = _
  rw [bcast_out_apply dn h]

variable (m : (ℓ : Loc nD τ sig) → Buf (Elt Ideal) ℓ)

theorem weights_apply (c : Dev nD) (t : Fin 32768) :
    wTerm m c (ix2 (0 : Fin 1) t)
      = Ideal.div (Ideal.exp (scoresOut m c (ix2 (0 : Fin 1) t) - maxOut m c (ix2 (0 : Fin 1) (0 : Fin 1)))) (denOut m c (ix2 (0 : Fin 1) (0 : Fin 1))) := by
  exact wForm_apply (scoresOut m c) (maxOut m c) (denOut m c) t

theorem output_apply (c : Dev nD) (h : Fin 1024) :
    outTerm m c (ix2 (0 : Fin 1) h)
      = Ideal.div (accOut m c (ix2 (0 : Fin 1) h)) (denOut m c (ix2 (0 : Fin 1) (0 : Fin 1))) := by
  exact oForm_apply (accOut m c) (denOut m c) h

end

end Cert.KernelIdeal.Tail

end
-- ==== Proof.AttnSpec.lean ====
/-
  Additive attention over finite numbers: what both programs compute.

  From a decoder state D (1024 numbers), encoder rows X (32768 rows of 1024), a weight vector Wt (2048 numbers: a decoder
  half then an encoder half) and a scalar b: the bias is  D · (decoder half of Wt) + b,  the score of row t is
  (encoder half of Wt) · X t + bias,  the weights are the softmax of the scores and the output is the weights against the
  rows. The softmax is written with the largest score subtracted, as both programs compute it.
-/
import proofs.«166729_j42322607735440_1_alg».proof.Proof.SoftmaxReal

noncomputable section

namespace Cert.Attn

open Finset

variable (D : Fin 1024 → ℝ) (X : Fin 32768 → Fin 1024 → ℝ) (Wt : Fin 2048 → ℝ) (b : ℝ)

/-- The decoder half of the weight vector. -/
def wdec (o : Fin 1024) : ℝ := Wt ⟨o.val, by have := o.isLt; omega⟩

/-- The encoder half of the weight vector. -/
def wenc (h : Fin 1024) : ℝ := Wt ⟨1024 + h.val, by have := h.isLt; omega⟩

/-- The bias every score shares. -/
def bias : ℝ := (∑ o : Fin 1024, D o * wdec Wt o) + b

/-- The score of row `t`. -/
def score (t : Fin 32768) : ℝ := (∑ h : Fin 1024, wenc Wt h * X t h) + bias D Wt b

/-- The softmax weight of row `t`. -/
def weight (t : Fin 32768) : ℝ := Real.exp (score D X Wt b t - mx (score D X Wt b)) / den (score D X Wt b)

/-- The attention output at column `h`. -/
def outv (h : Fin 1024) : ℝ := (∑ t : Fin 32768, Real.exp (score D X Wt b t - mx (score D X Wt b)) * X t h) / den (score D X Wt b)

/-- The weights against the rows are the output. -/
theorem sum_weight_mul (h : Fin 1024) : ∑ t : Fin 32768, weight D X Wt b t * X t h = outv D X Wt b h :=
  sum_div_den (score D X Wt b) X h

end Cert.Attn

end
-- ==== Proof.Bridge.lean ====
/-
  The attention kernel's two results as the specification's softmax weights and output.

  With every argument entry a finite number, the encoder matrix, the weight row and the bias the kernel's windows read
  are finite, so the grid run is the tile-by-tile softmax over the reals: the scores array holds the scores, the three
  small results the largest score, the softmax denominator and the unnormalised weighted sum of the rows. The host tail
  then divides: weight t = exp (score t - max) / denominator and output h = weighted sum h / denominator.
-/
import proofs.«166729_j42322607735440_1_alg».proof.Proof.Carried
import proofs.«166729_j42322607735440_1_alg».proof.Proof.Tail
import proofs.«166729_j42322607735440_1_alg».proof.Proof.AttnSpec

noncomputable section

namespace Cert.KernelIdeal.Bridge

open Cert.KernelIdeal Cert.KernelIdeal.Gen Cert.KernelIdeal.Blocks Cert.KernelIdeal.Outputs Cert.KernelIdeal.Tail
open Cert.KernelIdeal.Carried Cert.KernelIdeal.TileValue Cert.Attn
open Idealize.ShloMosaic Idealize.ShloMosaic.TcCoe Idealize.SL.Sem Idealize.ShloMosaic.ValueIdx Finset

/-- The kernel's scores over the reals are the specification's. -/
theorem sc_eq (D : Fin 1024 → ℝ) (X : Fin 32768 → Fin 1024 → ℝ) (Wt : Fin 2048 → ℝ) (b : ℝ) :
    sc X (wenc Wt) (bias D Wt b) = score D X Wt b := rfl

variable (m : (ℓ : Loc nD τ sig) → Buf (Elt Ideal) ℓ) (c : Dev nD)
variable (D : Fin 1024 → ℝ) (X : Fin 32768 → Fin 1024 → ℝ) (Wt : Fin 2048 → ℝ) (b : ℝ)
variable (hD : ∀ o : Fin 1024, decArg m c (ix2 (0 : Fin 1) o) = ((D o : ℝ) : EReal))
variable (hX : ∀ (t : Fin 32768) (h : Fin 1024), encArg m c (ix3 t (0 : Fin 1) h) = ((X t h : ℝ) : EReal))
variable (hWt : ∀ q : Fin 2048, wArg m c (ix2 (0 : Fin 1) q) = ((Wt q : ℝ) : EReal))
variable (hb : bArg m c (ix1 (0 : Fin 1)) = ((b : ℝ) : EReal))
include hD hX hWt hb

/-- The matrix the first window reads is finite. -/
theorem enc_real (t : Fin 32768) (h : Fin 1024) : encArr m c (ix2 t h) = ((X t h : ℝ) : EReal) :=
  (encArr_apply m c t h).trans (hX t h)

/-- The weight row is the encoder half of the weight vector. -/
theorem w_real (h : Fin 1024) : wArr m c (ix2 (0 : Fin 1) h) = ((wenc Wt h : ℝ) : EReal) :=
  (wArr_apply m c h).trans (hWt _)

/-- The bias the host computed is the specification's. -/
theorem bias_real : biasArr m c (ix2 (0 : Fin 1) (0 : Fin 1)) = ((bias D Wt b : ℝ) : EReal) := by
  rw [biasArr_apply, hb]
  have hs : (∑ o : Fin 1024, decArg m c (ix2 (0 : Fin 1) o) * wArg m c (ix2 (0 : Fin 1) (⟨o.val, by have := o.isLt; omega⟩ : Fin 2048)))
      = ∑ o : Fin 1024, ((D o * wdec Wt o : ℝ) : EReal) :=
    Finset.sum_congr rfl fun o _ => by rw [hD, hWt, ← EReal.coe_mul]; rfl
  rw [hs, ← tile_coe_sum, ← EReal.coe_add]
  rfl

/-- The normalised weights the program returns. -/
theorem kernel_weights (t : Fin 32768) :
    wTerm m c (ix2 (0 : Fin 1) t) = ((weight D X Wt b t : ℝ) : EReal) := by
  have hv := last_values m c X (wenc Wt) (bias D Wt b) (enc_real m c D X Wt b hD hX hWt hb) (w_real m c D X Wt b hD hX hWt hb) (bias_real m c D X Wt b hD hX hWt hb)
  have hs := scores_value m c X (wenc Wt) (bias D Wt b) (enc_real m c D X Wt b hD hX hWt hb) (w_real m c D X Wt b hD hX hWt hb) (bias_real m c D X Wt b hD hX hWt hb) t
  rw [weights_apply, hs, max_final, den_final, hv.1, hv.2.1, sc_eq D X Wt b, ← EReal.coe_sub, Ideal.exp_coe,
    Ideal.div_coe (ne_of_gt (den_pos (score D X Wt b))), ← EReal.coe_mul]
  unfold weight
  rw [mul_one_div]

/-- The attention output the program returns. -/
theorem kernel_output (h : Fin 1024) :
    outTerm m c (ix2 (0 : Fin 1) h) = ((outv D X Wt b h : ℝ) : EReal) := by
  have hv := last_values m c X (wenc Wt) (bias D Wt b) (enc_real m c D X Wt b hD hX hWt hb) (w_real m c D X Wt b hD hX hWt hb) (bias_real m c D X Wt b hD hX hWt hb)
  rw [output_apply, acc_final, den_final, hv.2.2 h, hv.2.1, sc_eq D X Wt b,
    Ideal.div_coe (ne_of_gt (den_pos (score D X Wt b))), ← EReal.coe_mul]
  unfold outv
  rw [mul_one_div]

end Cert.KernelIdeal.Bridge

end
-- ==== Proof.RefScores.lean ====
/-
  The reference program read at finite arguments.

  With every argument entry a finite number the reference's stages are finite numbers in closed form: the scores
  (encoder rows against the encoder half of the weight vector, plus the bias), their maximum (a maximum taken from -∞,
  then once more against -∞), the exponentials of the scores less the maximum, their sum from 0, the quotient of each
  exponential by the sum — the softmax weights — and the weights against the encoder rows.
-/
import proofs.«166729_j42322607735440_1_alg».proof.Proof.Gen.ReferenceIdeal.Run
import proofs.«166729_j42322607735440_1_alg».proof.Proof.Gen.ReferenceIdeal.Read
import proofs.«166729_j42322607735440_1_alg».proof.Proof.AttnSpec
import proofs.«166729_j42322607735440_1_alg».proof.Proof.LibBands
import Idealize.ShloMosaic.PureOps.Ideal.Laws
import Idealize.ShloMosaic.Lib.ValueIdx
import Idealize.ShloMosaic.Lib.KernelVsHost.SublaneAllReduce

noncomputable section

namespace Cert.ReferenceIdeal.RefValue

open Cert.ReferenceIdeal Cert.ReferenceIdeal.Gen Cert.ReferenceIdeal.Read Idealize.ShloMosaic Idealize.ShloMosaic.ValueIdx Finset

/-! ## Coercions of finite sums and suprema -/

/-- The coercion of a finite sum of reals is the sum of the coercions. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The supremum from -∞ of finitely many finite numbers (at least one) is the coercion of their maximum. -/
theorem sup_coe_real {ι : Type} (s : Finset ι) (hs : s.Nonempty) (f : ι → ℝ) :
    s.sup (fun j => ((f j : ℝ) : EReal)) = ((s.sup' hs f : ℝ) : EReal) := by
  apply le_antisymm
  · apply Finset.sup_le
    intro j hj
    exact EReal.coe_le_coe_iff.mpr (Finset.le_sup' f hj)
  · obtain ⟨j, hj, hjeq⟩ := Finset.exists_mem_eq_sup' hs f
    rw [hjeq]
    exact Finset.le_sup (f := fun j => ((f j : ℝ) : EReal)) hj

/-- The word the reference's maximum starts from is -∞. -/
theorem ofBits_negInf : Ideal.ofBits .f32 0xFF800000#32 = (⊥ : EReal) := by
  simp [Ideal.ofBits, Ideal.ieee]

variable (x0 : Vec Ideal S1x1024 .f32) (x1 : Vec Ideal S32768x1x1024 .f32) (x2 : Vec Ideal S1x2048 .f32) (x3 : Vec Ideal S1 .f32)
variable (D : Fin 1024 → ℝ) (X : Fin 32768 → Fin 1024 → ℝ) (Wt : Fin 2048 → ℝ) (b : ℝ)
variable (hx0 : ∀ o : Fin 1024, x0 (ix2 (0 : Fin 1) o) = ((D o : ℝ) : EReal))
variable (hx1 : ∀ (t : Fin 32768) (h : Fin 1024), x1 (ix3 t (0 : Fin 1) h) = ((X t h : ℝ) : EReal))
variable (hx2 : ∀ q : Fin 2048, x2 (ix2 (0 : Fin 1) q) = ((Wt q : ℝ) : EReal))
variable (hx3 : x3 (ix1 (0 : Fin 1)) = ((b : ℝ) : EReal))

/-! ## The scores -/

/-- Row `t` of the encoder rows against the encoder half of the weight vector. -/
theorem ref_encdot (hx1 : ∀ (t : Fin 32768) (h : Fin 1024), x1 (ix3 t (0 : Fin 1) h) = ((X t h : ℝ) : EReal))
    (hx2 : ∀ q : Fin 2048, x2 (ix2 (0 : Fin 1) q) = ((Wt q : ℝ) : EReal)) (t : Fin 32768) :
    val_main_v4 (F := Ideal) x1 x2 (idx_main_v11 (ix2 (0 : Fin 1) t))
      = ((∑ h : Fin 1024, Cert.Attn.wenc Wt h * X t h : ℝ) : EReal) := by
  rw [val_main_v4_apply]
  have hterm : ∀ k : Fin 1024,
      val_main_v0 (F := Ideal) x1 (lidx_main_v4 (idx_main_v11 (ix2 (0 : Fin 1) t)) k)
        * val_main_v3 (F := Ideal) x2 (ridx_main_v4 (idx_main_v11 (ix2 (0 : Fin 1) t)) k)
      = ((Cert.Attn.wenc Wt k * X t k : ℝ) : EReal) := by
    intro k
    have hk := k.isLt
    have ht := t.isLt
    rw [val_main_v0_apply, val_main_v3_apply, val_main_v2_apply]
    have e1 : idx_main_v0 (lidx_main_v4 (idx_main_v11 (ix2 (0 : Fin 1) t)) k) = ix3 t (0 : Fin 1) k :=
      funext fun a => Fin.ext (by
        match a with
        | ⟨0, _⟩ => show ((0 * 32768 + t.val) / 1 * 1024 + k.val) / 1024 = t.val; omega
        | ⟨1, _⟩ => rfl
        | ⟨2, _⟩ => show ((0 * 32768 + t.val) / 1 * 1024 + k.val) % 1024 = k.val; omega)
    have e2 : idx_main_v2 (idx_main_v3 (ridx_main_v4 (idx_main_v11 (ix2 (0 : Fin 1) t)) k))
        = ix2 (0 : Fin 1) (⟨1024 + k.val, by omega⟩ : Fin 2048) :=
      funext fun a => Fin.ext (by
        match a with
        | ⟨0, _⟩ => rfl
        | ⟨1, _⟩ => rfl)
    rw [e1, e2, hx1, hx2, ← EReal.coe_mul, mul_comm]
    rfl
  rw [Finset.sum_congr rfl (fun k _ => hterm k), ← coe_sum_real]

/-- The bias: the decoder state against the decoder half of the weight vector, plus the scalar. -/
theorem ref_bias (hx0 : ∀ o : Fin 1024, x0 (ix2 (0 : Fin 1) o) = ((D o : ℝ) : EReal))
    (hx2 : ∀ q : Fin 2048, x2 (ix2 (0 : Fin 1) q) = ((Wt q : ℝ) : EReal))
    (hx3 : x3 (ix1 (0 : Fin 1)) = ((b : ℝ) : EReal)) (i : S32768x1.Idx) :
    val_main_v9 (F := Ideal) x0 x2 x3 i = ((Cert.Attn.bias D Wt b : ℝ) : EReal) := by
  rw [val_main_v9_apply, val_main_v8_apply, val_main_v6_apply, val_main_v7_apply]
  have hterm : ∀ k : Fin 1024,
      x0 (lidx_main_v6 (idx_main_v9 i) k) * val_main_v5 (F := Ideal) x2 (ridx_main_v6 (idx_main_v9 i) k)
      = ((D k * Cert.Attn.wdec Wt k : ℝ) : EReal) := by
    intro k
    have hk := k.isLt
    rw [val_main_v5_apply, val_main_v1_apply]
    have e1 : lidx_main_v6 (idx_main_v9 i) k = ix2 (0 : Fin 1) k :=
      funext fun a => Fin.ext (by
        match a with
        | ⟨0, _⟩ => rfl
        | ⟨1, _⟩ => rfl)
    have e2 : idx_main_v1 (idx_main_v5 (ridx_main_v6 (idx_main_v9 i) k))
        = ix2 (0 : Fin 1) (⟨k.val, by omega⟩ : Fin 2048) :=
      funext fun a => Fin.ext (by
        match a with
        | ⟨0, _⟩ => rfl
        | ⟨1, _⟩ => rfl)
    rw [e1, e2, hx0, hx2, ← EReal.coe_mul]
    rfl
  have e3 : idx_main_v7 (idx_main_v9 i) = ix1 (0 : Fin 1) :=
    funext fun a => Fin.ext (by
      match a with
      | ⟨0, _⟩ => rfl)
  rw [Finset.sum_congr rfl (fun k _ => hterm k), ← coe_sum_real, e3, hx3, Ideal.addf_def, ← EReal.coe_add]
  rfl

include hx0 hx1 hx2 hx3

/-- The reference's scores are the specification's. -/
theorem ref_scores (t : Fin 32768) :
    val_main_v11 (F := Ideal) x0 x1 x2 x3 (ix2 (0 : Fin 1) t) = ((Cert.Attn.score D X Wt b t : ℝ) : EReal) := by
  rw [val_main_v11_apply, val_main_v10_apply, ref_encdot x1 x2 X Wt hx1 hx2 t, ref_bias x0 x2 x3 D Wt b hx0 hx2 hx3,
    Ideal.addf_def, ← EReal.coe_add]
  rfl

/-! ## The maximum -/

/-- The reference's maximum (taken from -∞ over the scores, then once more against -∞) is the largest score. -/
theorem ref_max :
    val_main_v14 (F := Ideal) x0 x1 x2 x3 (ix1 (0 : Fin 1))
      = ((Cert.Attn.mx (Cert.Attn.score D X Wt b) : ℝ) : EReal) := by
  rw [val_main_v14_apply, val_main_v13_apply, val_main_cst_0_apply]
  unfold val_main_v12
  have hred : S1x32768.Reduces [1] S1 := by decide
  rw [Host.reduce_eq_fold_single (α := Ideal .f32) (s := S1x32768) (t := S1) (u := S_)
    (FloatOps.maximumf (F := Ideal) (φ := .f32)) (val_main_v11 (F := Ideal) x0 x1 x2 x3) (val_main_cst (F := Ideal))
    reducesTo_S1x32768_S1_d1 hred h_S_, val_main_cst_apply]
  have hf : (val_main_v11 (F := Ideal) x0 x1 x2 x3 ∘ hred.lift (ix1 (0 : Fin 1)))
      = fun k : Fin 32768 => ((Cert.Attn.score D X Wt b k : ℝ) : EReal) :=
    funext fun k => by
      have hl : hred.lift (ix1 (0 : Fin 1)) k = ix2 (0 : Fin 1) (⟨k.val, k.isLt⟩ : Fin 32768) := by
        funext c; apply Fin.ext
        fin_cases c <;> rfl
      show val_main_v11 (F := Ideal) x0 x1 x2 x3 (hred.lift (ix1 (0 : Fin 1)) k) = _
      rw [hl]
      exact ref_scores x0 x1 x2 x3 D X Wt b hx0 hx1 hx2 hx3 _
  rw [hf]
  show max (Ideal.ofBits .f32 0xFF800000#32) (Finset.fold max (Ideal.ofBits .f32 0xFF800000#32)
    (fun k : Fin 32768 => ((Cert.Attn.score D X Wt b k : ℝ) : EReal)) (Finset.univ : Finset (Fin 32768))) = _
  rw [ofBits_negInf, Cert.LibBands.fold_max_eq_sup, sup_coe_real _ univ_nonempty, bot_sup_eq]
  rfl

/-! ## The softmax weights -/

/-- The exponential of a score less the maximum. -/
theorem ref_exp (t : Fin 32768) :
    val_main_v18 (F := Ideal) x0 x1 x2 x3 (ix2 (0 : Fin 1) t)
      = ((Real.exp (Cert.Attn.score D X Wt b t - Cert.Attn.mx (Cert.Attn.score D X Wt b)) : ℝ) : EReal) := by
  rw [val_main_v18_apply, val_main_v17_apply, val_main_v16_apply, val_main_v15_apply]
  have e : idx_main_v15 (idx_main_v16 (ix2 (0 : Fin 1) t)) = ix1 (0 : Fin 1) :=
    funext fun a => Fin.ext (by
      match a with
      | ⟨0, _⟩ => rfl)
  rw [e, ref_max x0 x1 x2 x3 D X Wt b hx0 hx1 hx2 hx3, ref_scores x0 x1 x2 x3 D X Wt b hx0 hx1 hx2 hx3, Ideal.subf_def, Ideal.hostUnary_exp_def, ← EReal.coe_sub, Ideal.exp_coe]

/-- The sum of the exponentials, from 0, is the softmax denominator. -/
theorem ref_den :
    val_main_v19 (F := Ideal) x0 x1 x2 x3 (ix1 (0 : Fin 1))
      = ((Cert.Attn.den (Cert.Attn.score D X Wt b) : ℝ) : EReal) := by
  rw [val_main_v19_apply, val_main_cst_1_apply]
  have hterm : ∀ k : Fin 32768, val_main_v18 (F := Ideal) x0 x1 x2 x3 (idx_main_v19 (ix1 (0 : Fin 1)) k)
      = ((Real.exp (Cert.Attn.score D X Wt b k - Cert.Attn.mx (Cert.Attn.score D X Wt b)) : ℝ) : EReal) := by
    intro k
    have e : idx_main_v19 (ix1 (0 : Fin 1)) k = ix2 (0 : Fin 1) k :=
      funext fun a => Fin.ext (by
        match a with
        | ⟨0, _⟩ => rfl
        | ⟨1, _⟩ => rfl)
    rw [e]
    exact ref_exp x0 x1 x2 x3 D X Wt b hx0 hx1 hx2 hx3 k
  rw [Finset.sum_congr rfl (fun k _ => hterm k), ← coe_sum_real]
  show Ideal.ofBits .f32 0x00000000#32 + _ = _
  rw [Ideal.ofBits_zero_f32, zero_add]
  rfl

/-- The reference's weights are the specification's softmax weights. -/
theorem ref_weights (t : Fin 32768) :
    val_main_v22 (F := Ideal) x0 x1 x2 x3 (ix2 (0 : Fin 1) t) = ((Cert.Attn.weight D X Wt b t : ℝ) : EReal) := by
  rw [val_main_v22_apply, val_main_v21_apply, val_main_v20_apply]
  have e : idx_main_v20 (idx_main_v21 (ix2 (0 : Fin 1) t)) = ix1 (0 : Fin 1) :=
    funext fun a => Fin.ext (by
      match a with
      | ⟨0, _⟩ => rfl)
  rw [e, ref_den x0 x1 x2 x3 D X Wt b hx0 hx1 hx2 hx3, ref_exp x0 x1 x2 x3 D X Wt b hx0 hx1 hx2 hx3, Ideal.hostDivf_def,
    Ideal.div_coe (ne_of_gt (Cert.Attn.den_pos (Cert.Attn.score D X Wt b))), ← EReal.coe_mul, mul_one_div]
  rfl

/-! ## The output -/

/-- The reference's output is the specification's. -/
theorem ref_output (h : Fin 1024) :
    val_main_v23 (F := Ideal) x0 x1 x2 x3 (ix2 (0 : Fin 1) h) = ((Cert.Attn.outv D X Wt b h : ℝ) : EReal) := by
  rw [val_main_v23_apply]
  have hterm : ∀ k : Fin 32768,
      val_main_v22 (F := Ideal) x0 x1 x2 x3 (lidx_main_v23 (ix2 (0 : Fin 1) h) k)
        * val_main_v0 (F := Ideal) x1 (ridx_main_v23 (ix2 (0 : Fin 1) h) k)
      = ((Cert.Attn.weight D X Wt b k * X k h : ℝ) : EReal) := by
    intro k
    have hk := k.isLt
    have hh := h.isLt
    rw [val_main_v0_apply]
    have e1 : lidx_main_v23 (ix2 (0 : Fin 1) h) k = ix2 (0 : Fin 1) k :=
      funext fun a => Fin.ext (by
        match a with
        | ⟨0, _⟩ => rfl
        | ⟨1, _⟩ => rfl)
    have e2 : idx_main_v0 (ridx_main_v23 (ix2 (0 : Fin 1) h) k) = ix3 k (0 : Fin 1) h :=
      funext fun a => Fin.ext (by
        match a with
        | ⟨0, _⟩ => show (k.val * 1024 + h.val) / 1024 = k.val; omega
        | ⟨1, _⟩ => rfl
        | ⟨2, _⟩ => show (k.val * 1024 + h.val) % 1024 = h.val; omega)
    rw [e1, e2, ref_weights x0 x1 x2 x3 D X Wt b hx0 hx1 hx2 hx3, hx1, ← EReal.coe_mul]
  rw [Finset.sum_congr rfl (fun k _ => hterm k), ← coe_sum_real, Cert.Attn.sum_weight_mul]

end Cert.ReferenceIdeal.RefValue

end
-- ==== Proof.Finite.lean ====
/-
  The precondition read: every entry of every argument is a finite number.

  The precondition says that each argument's entries have absolute value below +∞. An extended real whose absolute value
  is below +∞ is a real number, so each argument is the coercion of a real array.
-/
import proofs.«166729_j42322607735440_1_alg».proof.Defs
import proofs.«166729_j42322607735440_1_alg».proof.Proof.Gen.KernelIdeal
import proofs.«166729_j42322607735440_1_alg».proof.Proof.Gen.Pre_finite_inputs
import Idealize.ShloMosaic.Lib.ReduceAll
import Idealize.ShloMosaic.Lib.ValueIdx
import Idealize.ShloMosaic.PureOps.Ideal.Laws
import Mathlib.Data.EReal.Basic

noncomputable section

namespace Cert.KernelIdeal.Finite

open Cert.KernelIdeal Cert.KernelIdeal.Gen Idealize.ShloMosaic Idealize.ShloMosaic.TcCoe Idealize.SL.Sem
open Idealize.ShloMosaic.ValueIdx

/-- An extended real whose absolute value `max x (-x)` is below +∞ is neither infinity, hence the coercion of a real. -/
theorem entry_real (x : EReal) (h : max x (-x) < ⊤) : x = ((x.toReal : ℝ) : EReal) := by
  rw [max_lt_iff] at h
  have h1 : x ≠ ⊤ := h.1.ne
  have h2 : x ≠ ⊥ := by
    intro hh
    rw [hh] at h
    simp at h
  exact (EReal.coe_toReal h1 h2).symm

/-- The bit pattern the predicate compares against is +∞. -/
theorem inf_bits : Ideal.ofBits .f32 0x7F800000#32 = ⊤ := by simp [Ideal.ofBits, Ideal.ieee]

/-- One entry: the comparison `|x| < +∞` coming out true says `x` is a real. -/
theorem entry_of_cmp (x : Ideal .f32)
    (h : FloatOps.cmpf .olt (FloatOps.hostAbsf x) (FloatOps.ofBits (F := Ideal) .f32 0x7F800000#32) = 1#1) :
    (x : EReal) = ((EReal.toReal x : ℝ) : EReal) := by
  apply entry_real
  have h' : Ideal.cmp .olt (max (x : EReal) (-(x : EReal))) (Ideal.ofBits .f32 0x7F800000#32) = 1#1 := h
  rw [inf_bits] at h'
  unfold Ideal.cmp at h'
  by_contra hn
  simp [hn] at h'

instance : Subsingleton Cert.Pre_finite_inputs.S_.Idx := ⟨fun a b => funext fun d => d.elim0⟩

/-- One argument: the conjunction over all entries of `|x| < +∞` coming out true says every entry of `x` is a real. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel) (x : FVec Ideal s .f32)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) (i : s.Idx) :
    (x i : EReal) = ((EReal.toReal (x i) : ℝ) : EReal) :=
  entry_of_cmp (x i) (Host.reduce_andi_all _ _ hr hu ix0 h i)

/-- Under the precondition the four arguments are arrays of real numbers. -/
theorem real_args (m : (ℓ : Loc nD τ sig) → Buf (Elt Ideal) ℓ) (hpre : Cert.Pre_KernelIdeal m) (c : Dev nD) :
    ∃ (D : Fin 1024 → ℝ) (X : Fin 32768 → Fin 1024 → ℝ) (Wt : Fin 2048 → ℝ) (b : ℝ),
      (∀ o : Fin 1024, (m ((c.tc : Thread nD τ).loc main_arg0) : Vec Ideal S1x1024 .f32) (ix2 (0 : Fin 1) o) = ((D o : ℝ) : EReal))
      ∧ (∀ (t : Fin 32768) (h : Fin 1024), (m ((c.tc : Thread nD τ).loc main_arg1) : Vec Ideal S32768x1x1024 .f32) (ix3 t (0 : Fin 1) h) = ((X t h : ℝ) : EReal))
      ∧ (∀ q : Fin 2048, (m ((c.tc : Thread nD τ).loc main_arg2) : Vec Ideal S1x2048 .f32) (ix2 (0 : Fin 1) q) = ((Wt q : ℝ) : EReal))
      ∧ (m ((c.tc : Thread nD τ).loc main_arg3) : Vec Ideal S1 .f32) (ix1 (0 : Fin 1)) = ((b : ℝ) : EReal) := by
  have h := congrFun (hpre c) ValueIdx.ix0
  dsimp only [Cert.Pre_finite_inputs.fn, Cert.Pre_finite_inputs.fn_part1] at h
  obtain ⟨h123, h4⟩ := IntOp.andi_eq_one.1 h
  obtain ⟨h12, h3⟩ := IntOp.andi_eq_one.1 h123
  obtain ⟨h1, h2⟩ := IntOp.andi_eq_one.1 h12
  refine ⟨fun o => EReal.toReal ((m ((c.tc : Thread nD τ).loc main_arg0) : Vec Ideal S1x1024 .f32) (ix2 (0 : Fin 1) o)),
    fun t hh => EReal.toReal ((m ((c.tc : Thread nD τ).loc main_arg1) : Vec Ideal S32768x1x1024 .f32) (ix3 t (0 : Fin 1) hh)),
    fun q => EReal.toReal ((m ((c.tc : Thread nD τ).loc main_arg2) : Vec Ideal S1x2048 .f32) (ix2 (0 : Fin 1) q)),
    EReal.toReal ((m ((c.tc : Thread nD τ).loc main_arg3) : Vec Ideal S1 .f32) (ix1 (0 : Fin 1))), ?_, ?_, ?_, ?_⟩
  · intro o
    exact all_real _ _ _ _ h1 _
  · intro t hh
    exact all_real _ _ _ _ h2 _
  · intro q
    exact all_real _ _ _ _ h3 _
  · exact all_real _ _ _ _ h4 _

end Cert.KernelIdeal.Finite

end
-- ==== Proof.lean ====
/-
  Additive attention: a kernel that accumulates the softmax tile by tile against the one-pass reference.

  The kernel walks the 32768 encoder rows in 16 tiles of 2048. Per tile it computes the scores (encoder rows against the
  encoder half of the weight vector, plus a bias the host prepared from the decoder state), folds them into a running
  maximum, a running denominator and a running weighted sum of the rows — rescaling what was accumulated by
  exp (old maximum - new maximum) whenever the maximum grows — and writes the raw scores out. The host then forms
  exp (score - maximum) / denominator and weighted sum / denominator. The reference computes the scores at once, takes
  the softmax with the largest score subtracted, and multiplies the weights into the rows.

  Over the extended reals with finite inputs every intermediate value is a finite number. The rescaling identity
  exp (m - m') * exp (s - m) = exp (s - m') makes the running denominator and weighted sum, after the last tile, the
  sums over all rows taken against the final maximum, which is the largest of all scores: the reference's denominator
  and (before normalising) its weighted sum. Dividing each weight by the denominator before summing against the rows, or
  the sum afterwards, is the same number. The frames of the two kernel programs are the generated ones; the reference's
  is its generated run with the results dropped; the idealization rewrote nothing.
-/
import proofs.«166729_j42322607735440_1_alg».proof.Defs
import proofs.«166729_j42322607735440_1_alg».proof.Proof.Gen.Kernel
import proofs.«166729_j42322607735440_1_alg».proof.Proof.Gen.Kernel.Skeleton
import proofs.«166729_j42322607735440_1_alg».proof.Proof.Gen.Kernel.Launch
import proofs.«166729_j42322607735440_1_alg».proof.Proof.Gen.Kernel.Points
import proofs.«166729_j42322607735440_1_alg».proof.Proof.Gen.Kernel.Frame
import proofs.«166729_j42322607735440_1_alg».proof.Proof.Gen.KernelIdeal
import proofs.«166729_j42322607735440_1_alg».proof.Proof.Gen.KernelIdeal.Skeleton
import proofs.«166729_j42322607735440_1_alg».proof.Proof.Gen.KernelIdeal.Launch
import proofs.«166729_j42322607735440_1_alg».proof.Proof.Gen.KernelIdeal.Points
import proofs.«166729_j42322607735440_1_alg».proof.Proof.Gen.KernelIdeal.Frame
import proofs.«166729_j42322607735440_1_alg».proof.Proof.Gen.ReferenceIdeal
import proofs.«166729_j42322607735440_1_alg».proof.Proof.Gen.ReferenceIdeal.Run
import proofs.«166729_j42322607735440_1_alg».proof.Proof.Gen.ReferenceIdeal.Read
import proofs.«166729_j42322607735440_1_alg».proof.Proof.Gen.Pre_finite_inputs
import proofs.«166729_j42322607735440_1_alg».proof.Proof.Bridge
import proofs.«166729_j42322607735440_1_alg».proof.Proof.RefScores
import proofs.«166729_j42322607735440_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

section
variable (m : (ℓ : Loc Cert.KernelIdeal.nD Cert.KernelIdeal.τ Cert.KernelIdeal.sig) → Buf (Elt Ideal) ℓ)
variable (x0 : Vec Ideal Cert.ReferenceIdeal.S1x1024 .f32) (x1 : Vec Ideal Cert.ReferenceIdeal.S32768x1x1024 .f32)
variable (x2 : Vec Ideal Cert.ReferenceIdeal.S1x2048 .f32) (x3 : Vec Ideal Cert.ReferenceIdeal.S1 .f32)
variable (c : Dev Cert.KernelIdeal.nD)
variable (h0 : x0 = Cert.KernelIdeal.Blocks.decArg m c) (h1 : x1 = Cert.KernelIdeal.Blocks.encArg m c)
variable (h2 : x2 = Cert.KernelIdeal.Blocks.wArg m c) (h3 : x3 = Cert.KernelIdeal.Blocks.bArg m c)
variable (hpre : Cert.Pre_KernelIdeal m)
include h0 h1 h2 h3 hpre

/-- On arguments that agree and are finite, the reference's output is the kernel program's. -/
theorem output_eq :
    Cert.ReferenceIdeal.Read.val_main_v23 (F := Ideal) x0 x1 x2 x3 = Cert.KernelIdeal.Tail.outTerm m c := by
  obtain ⟨D, X, Wt, b, hD, hX, hWt, hb⟩ := Cert.KernelIdeal.Finite.real_args m hpre c
  subst h0 h1 h2 h3
  funext i
  obtain ⟨p, q, rfl⟩ : ∃ (p : Fin 1) (q : Fin 1024), i = ix2 p q := ⟨i 0, i 1, eq_ix2 i⟩
  obtain rfl : p = 0 := Subsingleton.elim _ _
  exact (Cert.ReferenceIdeal.RefValue.ref_output _ _ _ _ D X Wt b hD hX hWt hb q).trans
    (Cert.KernelIdeal.Bridge.kernel_output m c D X Wt b hD hX hWt hb q).symm

/-- And the reference's weights are the kernel program's. -/
theorem weights_eq :
    Cert.ReferenceIdeal.Read.val_main_v22 (F := Ideal) x0 x1 x2 x3 = Cert.KernelIdeal.Tail.wTerm m c := by
  obtain ⟨D, X, Wt, b, hD, hX, hWt, hb⟩ := Cert.KernelIdeal.Finite.real_args m hpre c
  subst h0 h1 h2 h3
  funext i
  obtain ⟨p, q, rfl⟩ : ∃ (p : Fin 1) (q : Fin 32768), i = ix2 p q := ⟨i 0, i 1, eq_ix2 i⟩
  obtain rfl : p = 0 := Subsingleton.elim _ _
  exact (Cert.ReferenceIdeal.RefValue.ref_weights _ _ _ _ D X Wt b hD hX hWt hb q).trans
    (Cert.KernelIdeal.Bridge.kernel_weights m c D X Wt b hD hX hWt hb q).symm

end

/-- Both programs run, and end with the same output and the same weights. -/
theorem algebraic : Cert.algebraic_KernelIdeal_ReferenceIdeal := by
  intro m ρ m' ρ' hpre hagree
  refine ⟨fun c => Cert.KernelIdeal.Tail.outTerm m c, fun c => Cert.KernelIdeal.Tail.wTerm m c,
    Cert.KernelIdeal.Tail.run m ρ, ?_⟩
  refine (θ_run Cert.ReferenceIdeal.defs _ _).mono (fun r h c => ?_) (Cert.ReferenceIdeal.Value.run (F := Ideal) m' ρ')
  obtain ⟨h23, h22, ha0, ha1, ha2, ha3⟩ := h c
  obtain ⟨g0, g1, g2, g3⟩ := hagree c
  refine ⟨h23.trans ?_, h22.trans ?_, ha0, ha1, ha2, ha3⟩
  · rw [Cert.ReferenceIdeal.Read.val_main_v23_eq]
    exact output_eq m _ _ _ _ c g0 g1 g2 g3 hpre
  · refine (Cert.ReferenceIdeal.Read.val_main_v22_eq _ _ _ _).trans ?_
    exact weights_eq m _ _ _ _ c g0 g1 g2 g3 hpre

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
